-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S16x200x8 : Shape := ⟨3, ![16, 200, 8]⟩
abbrev S16x1x256 : Shape := ⟨3, ![16, 1, 256]⟩
abbrev S16x200x200 : Shape := ⟨3, ![16, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 22
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S128x1x256, .f32⟩
  | .hbm, ⟨20, _⟩ => ⟨S128x200x200, .f32⟩
  | .hbm, ⟨21, _⟩ => ⟨S128x256, .f32⟩
  | .local _ .vmem, ⟨0, _⟩ => ⟨S16x200x8, .f32⟩
  | .local _ .vmem, ⟨1, _⟩ => ⟨S16x200x8, .f32⟩
  | .local _ .vmem, ⟨2, _⟩ => ⟨S8x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S16x1x256, .f32⟩
  | .local _ .vmem, ⟨15, _⟩ => ⟨S16x1x256, .f32⟩
  | .local _ .vmem, ⟨16, _⟩ => ⟨S16x200x200, .f32⟩
  | .local _ .vmem, ⟨17, _⟩ => ⟨S16x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S16x200x8_S1x200x8_0_0_0 : ∀ a, (![0, 0, 0] : Fin 3 → Nat) a + S1x200x8.size a ≤ S16x200x8.size a
  h_S1x200x8 : 0 < S1x200x8.numel
  shapeCasts_S1x200x8_S200x8 : S1x200x8.ShapeCasts S200x8
  broadcasts_S1x256_S200x256 : S1x256.Broadcasts S200x256
  inb_S16x200x8_S1x200x8_1_0_0 : ∀ a, (![1, 0, 0] : Fin 3 → Nat) a + S1x200x8.size a ≤ S16x200x8.size a
  inb_S16x200x8_S1x200x8_2_0_0 : ∀ a, (![2, 0, 0] : Fin 3 → Nat) a + S1x200x8.size a ≤ S16x200x8.size a
  inb_S16x200x8_S1x200x8_3_0_0 : ∀ a, (![3, 0, 0] : Fin 3 → Nat) a + S1x200x8.size a ≤ S16x200x8.size a
  inb_S16x200x8_S1x200x8_4_0_0 : ∀ a, (![4, 0, 0] : Fin 3 → Nat) a + S1x200x8.size a ≤ S16x200x8.size a
  inb_S16x200x8_S1x200x8_5_0_0 : ∀ a, (![5, 0, 0] : Fin 3 → Nat) a + S1x200x8.size a ≤ S16x200x8.size a
  inb_S16x200x8_S1x200x8_6_0_0 : ∀ a, (![6, 0, 0] : Fin 3 → Nat) a + S1x200x8.size a ≤ S16x200x8.size a
  inb_S16x200x8_S1x200x8_7_0_0 : ∀ a, (![7, 0, 0] : Fin 3 → Nat) a + S1x200x8.size a ≤ S16x200x8.size a
  inb_S16x200x8_S1x200x8_8_0_0 : ∀ a, (![8, 0, 0] : Fin 3 → Nat) a + S1x200x8.size a ≤ S16x200x8.size a
  inb_S16x200x8_S1x200x8_9_0_0 : ∀ a, (![9, 0, 0] : Fin 3 → Nat) a + S1x200x8.size a ≤ S16x200x8.size a
  inb_S16x200x8_S1x200x8_10_0_0 : ∀ a, (![10, 0, 0] : Fin 3 → Nat) a + S1x200x8.size a ≤ S16x200x8.size a
  inb_S16x200x8_S1x200x8_11_0_0 : ∀ a, (![11, 0, 0] : Fin 3 → Nat) a + S1x200x8.size a ≤ S16x200x8.size a
  inb_S16x200x8_S1x200x8_12_0_0 : ∀ a, (![12, 0, 0] : Fin 3 → Nat) a + S1x200x8.size a ≤ S16x200x8.size a
  inb_S16x200x8_S1x200x8_13_0_0 : ∀ a, (![13, 0, 0] : Fin 3 → Nat) a + S1x200x8.size a ≤ S16x200x8.size a
  inb_S16x200x8_S1x200x8_14_0_0 : ∀ a, (![14, 0, 0] : Fin 3 → Nat) a + S1x200x8.size a ≤ S16x200x8.size a
  inb_S16x200x8_S1x200x8_15_0_0 : ∀ a, (![15, 0, 0] : Fin 3 → Nat) a + S1x200x8.size a ≤ S16x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S16x1x256_S1x1x256_0_0_0 : ∀ a, (![0, 0, 0] : Fin 3 → Nat) a + S1x1x256.size a ≤ S16x1x256.size a
  h_S1x1x256 : 0 < S1x1x256.numel
  shapeCasts_S1x1x256_S1x256 : S1x1x256.ShapeCasts S1x256
  shapeCasts_S1x256_S1x1x256 : S1x256.ShapeCasts S1x1x256
  inb_S16x200x200_S1x200x200_0_0_0 : ∀ a, (![0, 0, 0] : Fin 3 → Nat) a + S1x200x200.size a ≤ S16x200x200.size a
  h_S1x200x200 : 0 < S1x200x200.numel
  shapeCasts_S1x200x200_S200x200 : S1x200x200.ShapeCasts S200x200
  shapeCasts_S200x200_S1x200x200 : S200x200.ShapeCasts S1x200x200
  inb_S16x1x256_S1x1x256_1_0_0 : ∀ a, (![1, 0, 0] : Fin 3 → Nat) a + S1x1x256.size a ≤ S16x1x256.size a
  inb_S16x200x200_S1x200x200_1_0_0 : ∀ a, (![1, 0, 0] : Fin 3 → Nat) a + S1x200x200.size a ≤ S16x200x200.size a
  inb_S16x1x256_S1x1x256_2_0_0 : ∀ a, (![2, 0, 0] : Fin 3 → Nat) a + S1x1x256.size a ≤ S16x1x256.size a
  inb_S16x200x200_S1x200x200_2_0_0 : ∀ a, (![2, 0, 0] : Fin 3 → Nat) a + S1x200x200.size a ≤ S16x200x200.size a
  inb_S16x1x256_S1x1x256_3_0_0 : ∀ a, (![3, 0, 0] : Fin 3 → Nat) a + S1x1x256.size a ≤ S16x1x256.size a
  inb_S16x200x200_S1x200x200_3_0_0 : ∀ a, (![3, 0, 0] : Fin 3 → Nat) a + S1x200x200.size a ≤ S16x200x200.size a
  inb_S16x1x256_S1x1x256_4_0_0 : ∀ a, (![4, 0, 0] : Fin 3 → Nat) a + S1x1x256.size a ≤ S16x1x256.size a
  inb_S16x200x200_S1x200x200_4_0_0 : ∀ a, (![4, 0, 0] : Fin 3 → Nat) a + S1x200x200.size a ≤ S16x200x200.size a
  inb_S16x1x256_S1x1x256_5_0_0 : ∀ a, (![5, 0, 0] : Fin 3 → Nat) a + S1x1x256.size a ≤ S16x1x256.size a
  inb_S16x200x200_S1x200x200_5_0_0 : ∀ a, (![5, 0, 0] : Fin 3 → Nat) a + S1x200x200.size a ≤ S16x200x200.size a
  inb_S16x1x256_S1x1x256_6_0_0 : ∀ a, (![6, 0, 0] : Fin 3 → Nat) a + S1x1x256.size a ≤ S16x1x256.size a
  inb_S16x200x200_S1x200x200_6_0_0 : ∀ a, (![6, 0, 0] : Fin 3 → Nat) a + S1x200x200.size a ≤ S16x200x200.size a
  inb_S16x1x256_S1x1x256_7_0_0 : ∀ a, (![7, 0, 0] : Fin 3 → Nat) a + S1x1x256.size a ≤ S16x1x256.size a
  inb_S16x200x200_S1x200x200_7_0_0 : ∀ a, (![7, 0, 0] : Fin 3 → Nat) a + S1x200x200.size a ≤ S16x200x200.size a
  inb_S16x1x256_S1x1x256_8_0_0 : ∀ a, (![8, 0, 0] : Fin 3 → Nat) a + S1x1x256.size a ≤ S16x1x256.size a
  inb_S16x200x200_S1x200x200_8_0_0 : ∀ a, (![8, 0, 0] : Fin 3 → Nat) a + S1x200x200.size a ≤ S16x200x200.size a
  inb_S16x1x256_S1x1x256_9_0_0 : ∀ a, (![9, 0, 0] : Fin 3 → Nat) a + S1x1x256.size a ≤ S16x1x256.size a
  inb_S16x200x200_S1x200x200_9_0_0 : ∀ a, (![9, 0, 0] : Fin 3 → Nat) a + S1x200x200.size a ≤ S16x200x200.size a
  inb_S16x1x256_S1x1x256_10_0_0 : ∀ a, (![10, 0, 0] : Fin 3 → Nat) a + S1x1x256.size a ≤ S16x1x256.size a
  inb_S16x200x200_S1x200x200_10_0_0 : ∀ a, (![10, 0, 0] : Fin 3 → Nat) a + S1x200x200.size a ≤ S16x200x200.size a
  inb_S16x1x256_S1x1x256_11_0_0 : ∀ a, (![11, 0, 0] : Fin 3 → Nat) a + S1x1x256.size a ≤ S16x1x256.size a
  inb_S16x200x200_S1x200x200_11_0_0 : ∀ a, (![11, 0, 0] : Fin 3 → Nat) a + S1x200x200.size a ≤ S16x200x200.size a
  inb_S16x1x256_S1x1x256_12_0_0 : ∀ a, (![12, 0, 0] : Fin 3 → Nat) a + S1x1x256.size a ≤ S16x1x256.size a
  inb_S16x200x200_S1x200x200_12_0_0 : ∀ a, (![12, 0, 0] : Fin 3 → Nat) a + S1x200x200.size a ≤ S16x200x200.size a
  inb_S16x1x256_S1x1x256_13_0_0 : ∀ a, (![13, 0, 0] : Fin 3 → Nat) a + S1x1x256.size a ≤ S16x1x256.size a
  inb_S16x200x200_S1x200x200_13_0_0 : ∀ a, (![13, 0, 0] : Fin 3 → Nat) a + S1x200x200.size a ≤ S16x200x200.size a
  inb_S16x1x256_S1x1x256_14_0_0 : ∀ a, (![14, 0, 0] : Fin 3 → Nat) a + S1x1x256.size a ≤ S16x1x256.size a
  inb_S16x200x200_S1x200x200_14_0_0 : ∀ a, (![14, 0, 0] : Fin 3 → Nat) a + S1x200x200.size a ≤ S16x200x200.size a
  inb_S16x1x256_S1x1x256_15_0_0 : ∀ a, (![15, 0, 0] : Fin 3 → Nat) a + S1x1x256.size a ≤ S16x1x256.size a
  inb_S16x200x200_S1x200x200_15_0_0 : ∀ a, (![15, 0, 0] : Fin 3 → Nat) a + S1x200x200.size a ≤ S16x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x200x8.size a ≤ S128x200x8.size a
  hwx0_0 : ∀ i : grid0.Coords, EltTy.bits .f32 = 32 ∨ (Rect.block (s := S128x200x8) S16x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x1x256.size a ≤ S128x1x256.size a
  hwx0_13 : ∀ i : grid0.Coords, EltTy.bits .f32 = 32 ∨ (Rect.block (s := S128x1x256) S16x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x200x200.size a ≤ S128x200x200.size a
  hwx0_14 : ∀ i : grid0.Coords, EltTy.bits .f32 = 32 ∨ (Rect.block (s := S128x200x200) S16x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg0) S16x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S16x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S16x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.JetSpec.lean ====
/-
  One jet's computation, as the kernel body performs it on a single row of its jets block.

  The kernel handles sixteen jets per grid point, each by the same chain of vector operations:
  an embedding  h₀ = tanh(J·W_emb + b_emb)  of the jet's 200 × 8 particles; three rounds of
  message passing, each  h ↦ tanh((h·W[0:256] + (A(h)·h)·W[256:512]) + b)  with the soft
  adjacency  A(h) = softmax over each row of (h·hᵀ)/16 ; and a readout
  Σ_n (tanh(h·W_r1 + b_r1)·W_r2)[n, ·] + 200·b_r2 .  The adjacency of the LAST round is the
  second result.  Everything is stated once, at any float instance, over the kernel's own shapes.
-/
import proofs.«163898_g85813446574462_cont_9to1c4b_288_12_alg».proof.Proof.Gen.KernelIdeal

noncomputable section

namespace Cert.KernelIdeal.Jet

open Idealize.ShloMosaic Idealize.SL.Sem Cert.KernelIdeal Cert.KernelIdeal.Gen

variable {F : FTy → Type} [FloatOps F]

/-- A bias row as the body reads it (a rank-preserving cast of the loaded 1 × 256 block). -/
def biasRow (b : Vec F S1x256 .f32) : FVec F S1x256 .f32 :=
  shapeCast S1x256 b shapeCasts_S1x256_S1x256

/-- The embedding: tanh(J·W + b), rows of J the particles. -/
def embed (J : FVec F S200x8 .f32) (W : Vec F S8x256 .f32) (b : FVec F S1x256 .f32) : FVec F S200x256 .f32 :=
  tanh (addf (matmul dot_S200x8_S8x256_S200x256_1_0_0_1_n_n none J W (constant S200x256 .f32 0x00000000#32))
    (broadcastTo S200x256 b broadcasts_S1x256_S200x256))

/-- The scaled Gram matrix (h·hᵀ)·(1/16). -/
def logits (H : FVec F S200x256 .f32) : FVec F S200x200 .f32 :=
  mulf (matmul dot_S200x256_S200x256_S200x200_1_1_0_0_n_n none H H (constant S200x200 .f32 0x00000000#32))
    (broadcast S200x200 (Scalar.ofBits .f32 0x3D800000#32))

/-- exp(l − max of l's row). -/
def expShift (L : FVec F S200x200 .f32) : FVec F S200x200 .f32 :=
  exp (subf L (broadcastTo S200x200
    (shapeCast S200x1 (multiReduction .maximumf [1] S200 L 0xFF800000#32 reduces_S200x200_S200 (.inl rfl) rfl) shapeCasts_S200_S200x1)
    broadcasts_S200x1_S200x200))

/-- Each row divided by its sum. -/
def normRows (E : FVec F S200x200 .f32) : FVec F S200x200 .f32 :=
  divf E (broadcastTo S200x200
    (shapeCast S200x1 (multiReduction .add [1] S200 E 0x00000000#32 reduces_S200x200_S200 (.inl rfl) rfl) shapeCasts_S200_S200x1)
    broadcasts_S200x1_S200x200)

/-- The soft adjacency of a hidden state: the row-wise softmax of its scaled Gram matrix. -/
def adjacency (H : FVec F S200x256 .f32) : FVec F S200x200 .f32 :=
  normRows (expShift (logits H))

/-- One round of message passing: tanh((h·W_top + (A·h)·W_bot) + b). -/
def update (H : FVec F S200x256 .f32) (W : Vec F S512x256 .f32) (b : FVec F S1x256 .f32) : FVec F S200x256 .f32 :=
  tanh (addf
    (addf
      (matmul dot_S200x256_S256x256_S200x256_1_0_0_1_n_n none H
        (extractStridedSlice S256x256 ![0, 0] W slices_S512x256_o0_0_S256x256) (constant S200x256 .f32 0x00000000#32))
      (matmul dot_S200x256_S256x256_S200x256_1_0_0_1_n_n none
        (matmul dot_S200x200_S200x256_S200x256_1_0_0_1_n_n none (adjacency H) H (constant S200x256 .f32 0x00000000#32))
        (extractStridedSlice S256x256 ![256, 0] W slices_S512x256_o256_0_S256x256) (constant S200x256 .f32 0x00000000#32)))
    (broadcastTo S200x256 b broadcasts_S1x256_S200x256))

/-- A dense layer on 256 features: tanh(h·W + b). -/
def dense (H : FVec F S200x256 .f32) (W : Vec F S256x256 .f32) (b : FVec F S1x256 .f32) : FVec F S200x256 .f32 :=
  tanh (addf (matmul dot_S200x256_S256x256_S200x256_1_0_0_1_n_n none H W (constant S200x256 .f32 0x00000000#32))
    (broadcastTo S200x256 b broadcasts_S1x256_S200x256))

/-- The readout: the column sums of dense(h)·W₂, plus 200·b₂. -/
def readout (H : FVec F S200x256 .f32) (W1 : Vec F S256x256 .f32) (b1 : FVec F S1x256 .f32)
    (W2 : Vec F S256x256 .f32) (b2 : FVec F S1x256 .f32) : FVec F S1x256 .f32 :=
  addf
    (shapeCast S1x256
      (multiReduction .add [0] S256
        (matmul dot_S200x256_S256x256_S200x256_1_0_0_1_n_n none (dense H W1 b1) W2 (constant S200x256 .f32 0x00000000#32))
        0x00000000#32 reduces_S200x256_S256 (.inl rfl) rfl)
      shapeCasts_S256_S1x256)
    (mulf (broadcast S1x256 (Scalar.ofBits .f32 0x43480000#32)) b2)

/-- The hidden state entering the third round, from one jet's row of the block. -/
def hidden2 (J : Vec F S1x200x8 .f32) (We : Vec F S8x256 .f32) (be : Vec F S1x256 .f32)
    (W0 : Vec F S512x256 .f32) (b0 : Vec F S1x256 .f32) (W1 : Vec F S512x256 .f32) (b1 : Vec F S1x256 .f32) :
    FVec F S200x256 .f32 :=
  update (update (embed (shapeCast S200x8 J shapeCasts_S1x200x8_S200x8) We (biasRow be)) W0 (biasRow b0)) W1 (biasRow b1)

/-- What the body stores for one jet in the adjacency output: the third round's adjacency. -/
def jetAdj (J : Vec F S1x200x8 .f32) (We : Vec F S8x256 .f32) (be : Vec F S1x256 .f32)
    (W0 : Vec F S512x256 .f32) (b0 : Vec F S1x256 .f32) (W1 : Vec F S512x256 .f32) (b1 : Vec F S1x256 .f32) :
    FVec F S1x200x200 .f32 :=
  shapeCast S1x200x200 (adjacency (hidden2 J We be W0 b0 W1 b1)) shapeCasts_S200x200_S1x200x200

/-- What the body stores for one jet in the readout output. -/
def jetOut (J : Vec F S1x200x8 .f32) (We : Vec F S8x256 .f32) (be : Vec F S1x256 .f32)
    (W0 : Vec F S512x256 .f32) (b0 : Vec F S1x256 .f32) (W1 : Vec F S512x256 .f32) (b1 : Vec F S1x256 .f32)
    (W2 : Vec F S512x256 .f32) (b2 : Vec F S1x256 .f32)
    (Wr1 : Vec F S256x256 .f32) (br1 : Vec F S1x256 .f32) (Wr2 : Vec F S256x256 .f32) (br2 : Vec F S1x256 .f32) :
    FVec F S1x1x256 .f32 :=
  shapeCast S1x1x256
    (readout (update (hidden2 J We be W0 b0 W1 b1) W2 (biasRow b2)) Wr1 (biasRow br1) Wr2 (biasRow br2))
    shapeCasts_S1x256_S1x1x256

end Cert.KernelIdeal.Jet

end
-- ==== Proof.KernelPieces.lean ====
/-
  What the body leaves in its two output buffers, jet by jet.

  The body's sixteen stores into each output buffer are, one per jet j, the value the per-jet
  computation (JetSpec) gives on row j of the jets block and the whole weight and bias blocks:
  the readout into row j of the 16 × 1 × 256 buffer, the last round's adjacency into row j of the
  16 × 200 × 200 buffer.  The printed body interleaves the sixteen jets stage by stage and cuts its
  text into windows; unfolding the windows' payloads gives back, for every jet, the same chain of
  operations on that jet's row.
-/
import proofs.«163898_g85813446574462_cont_9to1c4b_288_12_alg».proof.Proof.Gen.KernelIdeal.Frame
import proofs.«163898_g85813446574462_cont_9to1c4b_288_12_alg».proof.Proof.JetSpec

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

set_option maxHeartbeats 4000000 in
/-- The adjacency buffer after the body: row j holds jet j's adjacency (the stores listed last first). -/
theorem adj_pieces (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_14 x0 x1 x2 x3 x4 x5 x6 x7 x8 x9 x10 x11 x12 = View.canon ([
      ⟨r0_51, Jet.jetAdj (View.ld x0 r0_19) (View.ld x1 r0_0) (View.ld x2 r0_1) (View.ld x3 r0_2) (View.ld x4 r0_1) (View.ld x5 r0_2) (View.ld x6 r0_1)⟩,
      ⟨r0_49, Jet.jetAdj (View.ld x0 r0_18) (View.ld x1 r0_0) (View.ld x2 r0_1) (View.ld x3 r0_2) (View.ld x4 r0_1) (View.ld x5 r0_2) (View.ld x6 r0_1)⟩,
      ⟨r0_47, Jet.jetAdj (View.ld x0 r0_17) (View.ld x1 r0_0) (View.ld x2 r0_1) (View.ld x3 r0_2) (View.ld x4 r0_1) (View.ld x5 r0_2) (View.ld x6 r0_1)⟩,
      ⟨r0_45, Jet.jetAdj (View.ld x0 r0_16) (View.ld x1 r0_0) (View.ld x2 r0_1) (View.ld x3 r0_2) (View.ld x4 r0_1) (View.ld x5 r0_2) (View.ld x6 r0_1)⟩,
      ⟨r0_43, Jet.jetAdj (View.ld x0 r0_15) (View.ld x1 r0_0) (View.ld x2 r0_1) (View.ld x3 r0_2) (View.ld x4 r0_1) (View.ld x5 r0_2) (View.ld x6 r0_1)⟩,
      ⟨r0_41, Jet.jetAdj (View.ld x0 r0_14) (View.ld x1 r0_0) (View.ld x2 r0_1) (View.ld x3 r0_2) (View.ld x4 r0_1) (View.ld x5 r0_2) (View.ld x6 r0_1)⟩,
      ⟨r0_39, Jet.jetAdj (View.ld x0 r0_13) (View.ld x1 r0_0) (View.ld x2 r0_1) (View.ld x3 r0_2) (View.ld x4 r0_1) (View.ld x5 r0_2) (View.ld x6 r0_1)⟩,
      ⟨r0_37, Jet.jetAdj (View.ld x0 r0_12) (View.ld x1 r0_0) (View.ld x2 r0_1) (View.ld x3 r0_2) (View.ld x4 r0_1) (View.ld x5 r0_2) (View.ld x6 r0_1)⟩,
      ⟨r0_35, Jet.jetAdj (View.ld x0 r0_11) (View.ld x1 r0_0) (View.ld x2 r0_1) (View.ld x3 r0_2) (View.ld x4 r0_1) (View.ld x5 r0_2) (View.ld x6 r0_1)⟩,
      ⟨r0_33, Jet.jetAdj (View.ld x0 r0_10) (View.ld x1 r0_0) (View.ld x2 r0_1) (View.ld x3 r0_2) (View.ld x4 r0_1) (View.ld x5 r0_2) (View.ld x6 r0_1)⟩,
      ⟨r0_31, Jet.jetAdj (View.ld x0 r0_9) (View.ld x1 r0_0) (View.ld x2 r0_1) (View.ld x3 r0_2) (View.ld x4 r0_1) (View.ld x5 r0_2) (View.ld x6 r0_1)⟩,
      ⟨r0_29, Jet.jetAdj (View.ld x0 r0_8) (View.ld x1 r0_0) (View.ld x2 r0_1) (View.ld x3 r0_2) (View.ld x4 r0_1) (View.ld x5 r0_2) (View.ld x6 r0_1)⟩,
      ⟨r0_27, Jet.jetAdj (View.ld x0 r0_7) (View.ld x1 r0_0) (View.ld x2 r0_1) (View.ld x3 r0_2) (View.ld x4 r0_1) (View.ld x5 r0_2) (View.ld x6 r0_1)⟩,
      ⟨r0_25, Jet.jetAdj (View.ld x0 r0_6) (View.ld x1 r0_0) (View.ld x2 r0_1) (View.ld x3 r0_2) (View.ld x4 r0_1) (View.ld x5 r0_2) (View.ld x6 r0_1)⟩,
      ⟨r0_23, Jet.jetAdj (View.ld x0 r0_5) (View.ld x1 r0_0) (View.ld x2 r0_1) (View.ld x3 r0_2) (View.ld x4 r0_1) (View.ld x5 r0_2) (View.ld x6 r0_1)⟩,
      ⟨r0_21, Jet.jetAdj (View.ld x0 r0_4) (View.ld x1 r0_0) (View.ld x2 r0_1) (View.ld x3 r0_2) (View.ld x4 r0_1) (View.ld x5 r0_2) (View.ld x6 r0_1)⟩] : List (View.Piece (Elt F) S16x200x200 .f32)) := by
  unfold out0_14
  rfl

set_option maxHeartbeats 4000000 in
/-- The readout buffer after the body: row j holds jet j's readout (the stores listed last first). -/
theorem out_pieces (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_13 x0 x1 x2 x3 x4 x5 x6 x7 x8 x9 x10 x11 x12 = View.canon ([
      ⟨r0_50, Jet.jetOut (View.ld x0 r0_19) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_48, Jet.jetOut (View.ld x0 r0_18) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_46, Jet.jetOut (View.ld x0 r0_17) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_44, Jet.jetOut (View.ld x0 r0_16) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_42, Jet.jetOut (View.ld x0 r0_15) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_40, Jet.jetOut (View.ld x0 r0_14) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_38, Jet.jetOut (View.ld x0 r0_13) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_36, Jet.jetOut (View.ld x0 r0_12) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_34, Jet.jetOut (View.ld x0 r0_11) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_32, Jet.jetOut (View.ld x0 r0_10) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_30, Jet.jetOut (View.ld x0 r0_9) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_28, Jet.jetOut (View.ld x0 r0_8) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_26, Jet.jetOut (View.ld x0 r0_7) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_24, Jet.jetOut (View.ld x0 r0_6) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_22, Jet.jetOut (View.ld x0 r0_5) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩,
      ⟨r0_20, Jet.jetOut (View.ld x0 r0_4) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1)⟩] : List (View.Piece (Elt F) S16x1x256 .f32)) := by
  unfold out0_13
  rfl

end Cert.KernelIdeal.Pieces

end
-- ==== Proof.KernelValue.lean ====
/-
  What the kernel program leaves in its two results.

  The grid has 8 points; point t stages rows 16t … 16t+15 of the jets array and of both outputs, and
  the whole of every weight and (reshaped) bias.  Row j of each output block is jet 16t+j's value
  (KernelPieces), so each output array ends holding, at row β, the per-jet computation on row β of the
  jets array; the readout array 128 × 1 × 256 is then reshaped to 128 × 256.
-/
import proofs.«163898_g85813446574462_cont_9to1c4b_288_12_alg».proof.Proof.Gen.KernelIdeal.Frame
import proofs.«163898_g85813446574462_cont_9to1c4b_288_12_alg».proof.Proof.KernelPieces
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Row β of the jets array, as a 1 × 200 × 8 block. -/
def jetRow (c : Dev nD) (β : Fin 128) : Vec Ideal S1x200x8 .f32 :=
  fun x => (m ((c.tc : Thread nD τ).loc main_arg0) : Vec Ideal S128x200x8 .f32) (ix3 β (x 1) (x 2))

/-- A bias vector as the 1 × 256 block the region stages (the host reshape before the region). -/
def biasBlk (b : Vec Ideal S256 .f32) : Vec Ideal S1x256 .f32 := fun x => b (ix1 (x 1))

/-- The readout result: row β is jet β's readout. -/
def outK (c : Dev nD) : Vec Ideal S128x256 .f32 := fun i =>
  Jet.jetOut (F := Ideal) (jetRow m c (i 0)) (m ((c.tc : Thread nD τ).loc main_arg1)) (biasBlk (m ((c.tc : Thread nD τ).loc main_arg2))) (m ((c.tc : Thread nD τ).loc main_arg3)) (biasBlk (m ((c.tc : Thread nD τ).loc main_arg4))) (m ((c.tc : Thread nD τ).loc main_arg5)) (biasBlk (m ((c.tc : Thread nD τ).loc main_arg6))) (m ((c.tc : Thread nD τ).loc main_arg7)) (biasBlk (m ((c.tc : Thread nD τ).loc main_arg8))) (m ((c.tc : Thread nD τ).loc main_arg9)) (biasBlk (m ((c.tc : Thread nD τ).loc main_arg10))) (m ((c.tc : Thread nD τ).loc main_arg11)) (biasBlk (m ((c.tc : Thread nD τ).loc main_arg12))) (ix3 0 0 (i 1))

/-- The adjacency result: row β is jet β's third-round adjacency. -/
def adjK (c : Dev nD) : Vec Ideal S128x200x200 .f32 := fun i =>
  Jet.jetAdj (F := Ideal) (jetRow m c (i 0)) (m ((c.tc : Thread nD τ).loc main_arg1)) (biasBlk (m ((c.tc : Thread nD τ).loc main_arg2))) (m ((c.tc : Thread nD τ).loc main_arg3)) (biasBlk (m ((c.tc : Thread nD τ).loc main_arg4))) (m ((c.tc : Thread nD τ).loc main_arg5)) (biasBlk (m ((c.tc : Thread nD τ).loc main_arg6))) (ix3 0 (i 1) (i 2))

section Blocks
variable {F : FTy → Type} [FloatOps F]

/-- Row j of a 16 × 200 × 8 block, as a 1 × 200 × 8 block. -/
def rowOf (J : Vec F S16x200x8 .f32) (j : Fin 16) : Vec F S1x200x8 .f32 :=
  fun x => J (ix3 j (x 1) (x 2))

theorem ld_row (J : Vec F S16x200x8 .f32) (k : Nat) (hk : k < 16)
    (inb : ∀ a, (![k, 0, 0] : Fin 3 → Nat) a + S1x200x8.size a ≤ S16x200x8.size a) :
    View.ld J (Rect.unit (s := S16x200x8) ![k, 0, 0] S1x200x8.size inb) = rowOf J ⟨k, hk⟩ := by
  funext x
  show J _ = J _
  congr 1
  funext a
  apply Fin.ext
  match a with
  | ⟨0, _⟩ => show k + 1 * (x 0).val = k; have h : (x 0).val < 1 := (x 0).isLt; omega
  | ⟨1, _⟩ => show 0 + 1 * (x 1).val = (x 1).val; omega
  | ⟨2, _⟩ => show 0 + 1 * (x 2).val = (x 2).val; omega

theorem hz2 : (![0, 0] : Fin 2 → Nat) = fun _ => 0 := funext fun a => by fin_cases a <;> rfl

/-- What a point leaves in its readout buffer, as one function of the buffer's index: row j is the readout of
    row j of the jets block. -/
def blockOut (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) : Vec F S16x1x256 .f32 := fun y =>
  Jet.jetOut (rowOf x0 (y 0)) x1 x2 x3 x4 x5 x6 x7 x8 x9 x10 x11 x12 (ix3 0 0 (y 2))

/-- What a point leaves in its adjacency buffer, as one function of the buffer's index. -/
def blockAdj (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) : Vec F S16x200x200 .f32 := fun y =>
  Jet.jetAdj (rowOf x0 (y 0)) x1 x2 x3 x4 x5 x6 (ix3 0 (y 1) (y 2))

theorem out_piece (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) (k : Nat) (hk : k < 16)
    (inbJ : ∀ a, (![k, 0, 0] : Fin 3 → Nat) a + S1x200x8.size a ≤ S16x200x8.size a)
    (inbO : ∀ a, (![k, 0, 0] : Fin 3 → Nat) a + S1x1x256.size a ≤ S16x1x256.size a) (x : S1x1x256.Idx) :
    Jet.jetOut (View.ld x0 (Rect.unit (s := S16x200x8) ![k, 0, 0] S1x200x8.size inbJ)) (View.ld x1 r0_0) (View.ld x2 r0_1) (View.ld x3 r0_2) (View.ld x4 r0_1) (View.ld x5 r0_2) (View.ld x6 r0_1) (View.ld x7 r0_2) (View.ld x8 r0_1) (View.ld x9 r0_3) (View.ld x10 r0_1) (View.ld x11 r0_3) (View.ld x12 r0_1) x
      = blockOut x0 x1 x2 x3 x4 x5 x6 x7 x8 x9 x10 x11 x12 ((Rect.unit (s := S16x1x256) ![k, 0, 0] S1x1x256.size inbO).emb x) := by
  rw [ld_row x0 k hk inbJ]
  simp only [View.ld_unit_zero (S := S8x256) hz2, View.ld_unit_zero (S := S1x256) hz2, View.ld_unit_zero (S := S512x256) hz2, View.ld_unit_zero (S := S256x256) hz2]
  unfold blockOut
  have e0 : ((Rect.unit (s := S16x1x256) ![k, 0, 0] S1x1x256.size inbO).emb x) 0 = ⟨k, hk⟩ :=
    Fin.ext (by show k + 1 * (x 0).val = k; have h : (x 0).val < 1 := (x 0).isLt; omega)
  have e2 : x = ix3 0 0 (((Rect.unit (s := S16x1x256) ![k, 0, 0] S1x1x256.size inbO).emb x) 2) := by
    funext a
    apply Fin.ext
    match a with
    | ⟨0, _⟩ => show (x 0).val = 0; have h : (x 0).val < 1 := (x 0).isLt; omega
    | ⟨1, _⟩ => show (x 1).val = 0; have h : (x 1).val < 1 := (x 1).isLt; omega
    | ⟨2, _⟩ => show (x 2).val = 0 + 1 * (x 2).val; omega
  rw [e0]
  exact congrArg _ e2

theorem adj_piece (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) (k : Nat) (hk : k < 16)
    (inbJ : ∀ a, (![k, 0, 0] : Fin 3 → Nat) a + S1x200x8.size a ≤ S16x200x8.size a)
    (inbO : ∀ a, (![k, 0, 0] : Fin 3 → Nat) a + S1x200x200.size a ≤ S16x200x200.size a) (x : S1x200x200.Idx) :
    Jet.jetAdj (View.ld x0 (Rect.unit (s := S16x200x8) ![k, 0, 0] S1x200x8.size inbJ)) (View.ld x1 r0_0) (View.ld x2 r0_1) (View.ld x3 r0_2) (View.ld x4 r0_1) (View.ld x5 r0_2) (View.ld x6 r0_1) x
      = blockAdj x0 x1 x2 x3 x4 x5 x6 x7 x8 x9 x10 x11 x12 ((Rect.unit (s := S16x200x200) ![k, 0, 0] S1x200x200.size inbO).emb x) := by
  rw [ld_row x0 k hk inbJ]
  simp only [View.ld_unit_zero (S := S8x256) hz2, View.ld_unit_zero (S := S1x256) hz2, View.ld_unit_zero (S := S512x256) hz2]
  unfold blockAdj
  have e0 : ((Rect.unit (s := S16x200x200) ![k, 0, 0] S1x200x200.size inbO).emb x) 0 = ⟨k, hk⟩ :=
    Fin.ext (by show k + 1 * (x 0).val = k; have h : (x 0).val < 1 := (x 0).isLt; omega)
  have e2 : x = ix3 0 (((Rect.unit (s := S16x200x200) ![k, 0, 0] S1x200x200.size inbO).emb x) 1) (((Rect.unit (s := S16x200x200) ![k, 0, 0] S1x200x200.size inbO).emb x) 2) := by
    funext a
    apply Fin.ext
    match a with
    | ⟨0, _⟩ => show (x 0).val = 0; have h : (x 0).val < 1 := (x 0).isLt; omega
    | ⟨1, _⟩ => show (x 1).val = 0 + 1 * (x 1).val; omega
    | ⟨2, _⟩ => show (x 2).val = 0 + 1 * (x 2).val; omega
  rw [e0]
  exact congrArg _ e2

/-- The readout buffer after the body is ONE function of its index: the sixteen stores tile it. -/
theorem out_block (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) : out0_13 x0 x1 x2 x3 x4 x5 x6 x7 x8 x9 x10 x11 x12 = blockOut x0 x1 x2 x3 x4 x5 x6 x7 x8 x9 x10 x11 x12 := by
  rw [Pieces.out_pieces]
  funext y
  refine View.canon_apply_of_pieces (blockOut x0 x1 x2 x3 x4 x5 x6 x7 x8 x9 x10 x11 x12) _ ?_ y (cover0_13 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x; exact out_piece x0 x1 x2 x3 x4 x5 x6 x7 x8 x9 x10 x11 x12 15 (by decide) inb_S16x200x8_S1x200x8_15_0_0 inb_S16x1x256_S1x1x256_15_0_0 x
  · intro x; exact out_piece x0 x1 x2 x3 x4 x5 x6 x7 x8 x9 x10 x11 x12 14 (by decide) inb_S16x200x8_S1x200x8_14_0_0 inb_S16x1x256_S1x1x256_14_0_0 x
  · intro x; exact out_piece x0 x1 x2 x3 x4 x5 x6 x7 x8 x9 x10 x11 x12 13 (by decide) inb_S16x200x8_S1x200x8_13_0_0 inb_S16x1x256_S1x1x256_13_0_0 x
  · intro x; exact out_piece x0 x1 x2 x3 x4 x5 x6 x7 x8 x9 x10 x11 x12 12 (by decide) inb_S16x200x8_S1x200x8_12_0_0 inb_S16x1x256_S1x1x256_12_0_0 x
  · intro x; exact out_piece x0 x1 x2 x3 x4 x5 x6 x7 x8 x9 x10 x11 x12 11 (by decide) inb_S16x200x8_S1x200x8_11_0_0 inb_S16x1x256_S1x1x256_11_0_0 x
  · intro x; exact out_piece x0 x1 x2 x3 x4 x5 x6 x7 x8 x9 x10 x11 x12 10 (by decide) inb_S16x200x8_S1x200x8_10_0_0 inb_S16x1x256_S1x1x256_10_0_0 x
  · intro x; exact out_piece x0 x1 x2 x3 x4 x5 x6 x7 x8 x9 x10 x11 x12 9 (by decide) inb_S16x200x8_S1x200x8_9_0_0 inb_S16x1x256_S1x1x256_9_0_0 x
  · intro x; exact out_piece x0 x1 x2 x3 x4 x5 x6 x7 x8 x9 x10 x11 x12 8 (by decide) inb_S16x200x8_S1x200x8_8_0_0 inb_S16x1x256_S1x1x256_8_0_0 x
  · intro x; exact out_piece x0 x1 x2 x3 x4 x5 x6 x7 x8 x9 x10 x11 x12 7 (by decide) inb_S16x200x8_S1x200x8_7_0_0 inb_S16x1x256_S1x1x256_7_0_0 x
  · intro x; exact out_piece x0 x1 x2 x3 x4 x5 x6 x7 x8 x9 x10 x11 x12 6 (by decide) inb_S16x200x8_S1x200x8_6_0_0 inb_S16x1x256_S1x1x256_6_0_0 x
  · intro x; exact out_piece x0 x1 x2 x3 x4 x5 x6 x7 x8 x9 x10 x11 x12 5 (by decide) inb_S16x200x8_S1x200x8_5_0_0 inb_S16x1x256_S1x1x256_5_0_0 x
  · intro x; exact out_piece x0 x1 x2 x3 x4 x5 x6 x7 x8 x9 x10 x11 x12 4 (by decide) inb_S16x200x8_S1x200x8_4_0_0 inb_S16x1x256_S1x1x256_4_0_0 x
  · intro x; exact out_piece x0 x1 x2 x3 x4 x5 x6 x7 x8 x9 x10 x11 x12 3 (by decide) inb_S16x200x8_S1x200x8_3_0_0 inb_S16x1x256_S1x1x256_3_0_0 x
  · intro x; exact out_piece x0 x1 x2 x3 x4 x5 x6 x7 x8 x9 x10 x11 x12 2 (by decide) inb_S16x200x8_S1x200x8_2_0_0 inb_S16x1x256_S1x1x256_2_0_0 x
  · intro x; exact out_piece x0 x1 x2 x3 x4 x5 x6 x7 x8 x9 x10 x11 x12 1 (by decide) inb_S16x200x8_S1x200x8_1_0_0 inb_S16x1x256_S1x1x256_1_0_0 x
  · intro x; exact out_piece x0 x1 x2 x3 x4 x5 x6 x7 x8 x9 x10 x11 x12 0 (by decide) inb_S16x200x8_S1x200x8_0_0_0 inb_S16x1x256_S1x1x256_0_0_0 x

/-- The adjacency buffer after the body is ONE function of its index. -/
theorem adj_block (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) : out0_14 x0 x1 x2 x3 x4 x5 x6 x7 x8 x9 x10 x11 x12 = blockAdj x0 x1 x2 x3 x4 x5 x6 x7 x8 x9 x10 x11 x12 := by
  rw [Pieces.adj_pieces]
  funext y
  refine View.canon_apply_of_pieces (blockAdj x0 x1 x2 x3 x4 x5 x6 x7 x8 x9 x10 x11 x12) _ ?_ y (cover0_14 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x; exact adj_piece x0 x1 x2 x3 x4 x5 x6 x7 x8 x9 x10 x11 x12 15 (by decide) inb_S16x200x8_S1x200x8_15_0_0 inb_S16x200x200_S1x200x200_15_0_0 x
  · intro x; exact adj_piece x0 x1 x2 x3 x4 x5 x6 x7 x8 x9 x10 x11 x12 14 (by decide) inb_S16x200x8_S1x200x8_14_0_0 inb_S16x200x200_S1x200x200_14_0_0 x
  · intro x; exact adj_piece x0 x1 x2 x3 x4 x5 x6 x7 x8 x9 x10 x11 x12 13 (by decide) inb_S16x200x8_S1x200x8_13_0_0 inb_S16x200x200_S1x200x200_13_0_0 x
  · intro x; exact adj_piece x0 x1 x2 x3 x4 x5 x6 x7 x8 x9 x10 x11 x12 12 (by decide) inb_S16x200x8_S1x200x8_12_0_0 inb_S16x200x200_S1x200x200_12_0_0 x
  · intro x; exact adj_piece x0 x1 x2 x3 x4 x5 x6 x7 x8 x9 x10 x11 x12 11 (by decide) inb_S16x200x8_S1x200x8_11_0_0 inb_S16x200x200_S1x200x200_11_0_0 x
  · intro x; exact adj_piece x0 x1 x2 x3 x4 x5 x6 x7 x8 x9 x10 x11 x12 10 (by decide) inb_S16x200x8_S1x200x8_10_0_0 inb_S16x200x200_S1x200x200_10_0_0 x
  · intro x; exact adj_piece x0 x1 x2 x3 x4 x5 x6 x7 x8 x9 x10 x11 x12 9 (by decide) inb_S16x200x8_S1x200x8_9_0_0 inb_S16x200x200_S1x200x200_9_0_0 x
  · intro x; exact adj_piece x0 x1 x2 x3 x4 x5 x6 x7 x8 x9 x10 x11 x12 8 (by decide) inb_S16x200x8_S1x200x8_8_0_0 inb_S16x200x200_S1x200x200_8_0_0 x
  · intro x; exact adj_piece x0 x1 x2 x3 x4 x5 x6 x7 x8 x9 x10 x11 x12 7 (by decide) inb_S16x200x8_S1x200x8_7_0_0 inb_S16x200x200_S1x200x200_7_0_0 x
  · intro x; exact adj_piece x0 x1 x2 x3 x4 x5 x6 x7 x8 x9 x10 x11 x12 6 (by decide) inb_S16x200x8_S1x200x8_6_0_0 inb_S16x200x200_S1x200x200_6_0_0 x
  · intro x; exact adj_piece x0 x1 x2 x3 x4 x5 x6 x7 x8 x9 x10 x11 x12 5 (by decide) inb_S16x200x8_S1x200x8_5_0_0 inb_S16x200x200_S1x200x200_5_0_0 x
  · intro x; exact adj_piece x0 x1 x2 x3 x4 x5 x6 x7 x8 x9 x10 x11 x12 4 (by decide) inb_S16x200x8_S1x200x8_4_0_0 inb_S16x200x200_S1x200x200_4_0_0 x
  · intro x; exact adj_piece x0 x1 x2 x3 x4 x5 x6 x7 x8 x9 x10 x11 x12 3 (by decide) inb_S16x200x8_S1x200x8_3_0_0 inb_S16x200x200_S1x200x200_3_0_0 x
  · intro x; exact adj_piece x0 x1 x2 x3 x4 x5 x6 x7 x8 x9 x10 x11 x12 2 (by decide) inb_S16x200x8_S1x200x8_2_0_0 inb_S16x200x200_S1x200x200_2_0_0 x
  · intro x; exact adj_piece x0 x1 x2 x3 x4 x5 x6 x7 x8 x9 x10 x11 x12 1 (by decide) inb_S16x200x8_S1x200x8_1_0_0 inb_S16x200x200_S1x200x200_1_0_0 x
  · intro x; exact adj_piece x0 x1 x2 x3 x4 x5 x6 x7 x8 x9 x10 x11 x12 0 (by decide) inb_S16x200x8_S1x200x8_0_0_0 inb_S16x200x200_S1x200x200_0_0_0 x

end Blocks

/-! ## The windows' blocks as parts of the arguments -/

/-- The windows' index maps over the grid: the jets window and both output windows sit at block t on the first
    axis and at block 0 on the others. -/
theorem idx_facts : ∀ t : Fin cfg0.N,
    win0_0.index t (0 : Fin 3) = t.val ∧ win0_0.index t (1 : Fin 3) = 0 ∧ win0_0.index t (2 : Fin 3) = 0
    ∧ win0_13.index t (0 : Fin 3) = t.val ∧ win0_13.index t (1 : Fin 3) = 0 ∧ win0_13.index t (2 : Fin 3) = 0
    ∧ win0_14.index t (0 : Fin 3) = t.val ∧ win0_14.index t (1 : Fin 3) = 0 ∧ win0_14.index t (2 : Fin 3) = 0 :=
  (by decide +kernel : ∀ t : Fin grid0.N, _)

/-- Every weight and bias window sits at block 0 on both axes, at every point. -/
theorem idxw_1 : ∀ t : Fin cfg0.N, win0_1.index t (0 : Fin 2) = 0 ∧ win0_1.index t (1 : Fin 2) = 0 :=
  (by decide +kernel : ∀ t : Fin grid0.N, _)
theorem idxw_2 : ∀ t : Fin cfg0.N, win0_2.index t (0 : Fin 2) = 0 ∧ win0_2.index t (1 : Fin 2) = 0 :=
  (by decide +kernel : ∀ t : Fin grid0.N, _)
theorem idxw_3 : ∀ t : Fin cfg0.N, win0_3.index t (0 : Fin 2) = 0 ∧ win0_3.index t (1 : Fin 2) = 0 :=
  (by decide +kernel : ∀ t : Fin grid0.N, _)
theorem idxw_4 : ∀ t : Fin cfg0.N, win0_4.index t (0 : Fin 2) = 0 ∧ win0_4.index t (1 : Fin 2) = 0 :=
  (by decide +kernel : ∀ t : Fin grid0.N, _)
theorem idxw_5 : ∀ t : Fin cfg0.N, win0_5.index t (0 : Fin 2) = 0 ∧ win0_5.index t (1 : Fin 2) = 0 :=
  (by decide +kernel : ∀ t : Fin grid0.N, _)
theorem idxw_6 : ∀ t : Fin cfg0.N, win0_6.index t (0 : Fin 2) = 0 ∧ win0_6.index t (1 : Fin 2) = 0 :=
  (by decide +kernel : ∀ t : Fin grid0.N, _)
theorem idxw_7 : ∀ t : Fin cfg0.N, win0_7.index t (0 : Fin 2) = 0 ∧ win0_7.index t (1 : Fin 2) = 0 :=
  (by decide +kernel : ∀ t : Fin grid0.N, _)
theorem idxw_8 : ∀ t : Fin cfg0.N, win0_8.index t (0 : Fin 2) = 0 ∧ win0_8.index t (1 : Fin 2) = 0 :=
  (by decide +kernel : ∀ t : Fin grid0.N, _)
theorem idxw_9 : ∀ t : Fin cfg0.N, win0_9.index t (0 : Fin 2) = 0 ∧ win0_9.index t (1 : Fin 2) = 0 :=
  (by decide +kernel : ∀ t : Fin grid0.N, _)
theorem idxw_10 : ∀ t : Fin cfg0.N, win0_10.index t (0 : Fin 2) = 0 ∧ win0_10.index t (1 : Fin 2) = 0 :=
  (by decide +kernel : ∀ t : Fin grid0.N, _)
theorem idxw_11 : ∀ t : Fin cfg0.N, win0_11.index t (0 : Fin 2) = 0 ∧ win0_11.index t (1 : Fin 2) = 0 :=
  (by decide +kernel : ∀ t : Fin grid0.N, _)
theorem idxw_12 : ∀ t : Fin cfg0.N, win0_12.index t (0 : Fin 2) = 0 ∧ win0_12.index t (1 : Fin 2) = 0 :=
  (by decide +kernel : ∀ t : Fin grid0.N, _)

/-- Row j of the jets block at point t is row 16t + j of the jets array. -/
theorem jets_row (c : Dev nD) (t : Fin cfg0.N) (j : Fin 16) (β : Fin 128) (hβ : β.val = 16 * t.val + j.val) :
    rowOf (iblk m c 0 t : Vec Ideal S16x200x8 .f32) j = jetRow m c β := by
  obtain ⟨e0, e1, e2, -⟩ := idx_facts t
  funext x
  show (iblk m c 0 t : Vec Ideal S16x200x8 .f32) (ix3 j (x 1) (x 2))
    = (m ((c.tc : Thread nD τ).loc main_arg0) : Vec Ideal S128x200x8 .f32) (ix3 β (x 1) (x 2))
  unfold iblk
  rw [View.read_apply]
  show V m c main_arg0 _ = _
  rw [V_main_arg0]
  congr 1
  funext a
  apply Fin.ext
  match a with
  | ⟨0, _⟩ => show win0_0.index t (0 : Fin 3) * 16 + 1 * j.val = β.val; rw [e0, hβ]; omega
  | ⟨1, _⟩ => show win0_0.index t (1 : Fin 3) * 200 + 1 * (x 1).val = (x 1).val; rw [e1]; omega
  | ⟨2, _⟩ => show win0_0.index t (2 : Fin 3) * 8 + 1 * (x 2).val = (x 2).val; rw [e2]; omega

/-- Window 1's block at any point is the whole of its argument. -/
theorem wblk_1 (c : Dev nD) (t : Fin cfg0.N) :
    (iblk m c 1 t : Vec Ideal S8x256 .f32) = m ((c.tc : Thread nD τ).loc main_arg1) := by
  obtain ⟨e0, e1⟩ := idxw_1 t
  funext x
  unfold iblk
  rw [View.read_apply]
  show V m c main_arg1 _ = _
  rw [V_main_arg1]
  congr 1
  funext a
  apply Fin.ext
  match a with
  | ⟨0, _⟩ => show win0_1.index t (0 : Fin 2) * 8 + 1 * (x 0).val = (x 0).val; rw [e0]; omega
  | ⟨1, _⟩ => show win0_1.index t (1 : Fin 2) * 256 + 1 * (x 1).val = (x 1).val; rw [e1]; omega

/-- Window 3's block at any point is the whole of its argument. -/
theorem wblk_3 (c : Dev nD) (t : Fin cfg0.N) :
    (iblk m c 3 t : Vec Ideal S512x256 .f32) = m ((c.tc : Thread nD τ).loc main_arg3) := by
  obtain ⟨e0, e1⟩ := idxw_3 t
  funext x
  unfold iblk
  rw [View.read_apply]
  show V m c main_arg3 _ = _
  rw [V_main_arg3]
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 256 + 1 * (x 1).val = (x 1).val; rw [e1]; omega

/-- Window 5's block at any point is the whole of its argument. -/
theorem wblk_5 (c : Dev nD) (t : Fin cfg0.N) :
    (iblk m c 5 t : Vec Ideal S512x256 .f32) = m ((c.tc : Thread nD τ).loc main_arg5) := by
  obtain ⟨e0, e1⟩ := idxw_5 t
  funext x
  unfold iblk
  rw [View.read_apply]
  show V m c main_arg5 _ = _
  rw [V_main_arg5]
  congr 1
  funext a
  apply Fin.ext
  match a with
  | ⟨0, _⟩ => show win0_5.index t (0 : Fin 2) * 512 + 1 * (x 0).val = (x 0).val; rw [e0]; omega
  | ⟨1, _⟩ => show win0_5.index t (1 : Fin 2) * 256 + 1 * (x 1).val = (x 1).val; rw [e1]; omega

/-- Window 7's block at any point is the whole of its argument. -/
theorem wblk_7 (c : Dev nD) (t : Fin cfg0.N) :
    (iblk m c 7 t : Vec Ideal S512x256 .f32) = m ((c.tc : Thread nD τ).loc main_arg7) := by
  obtain ⟨e0, e1⟩ := idxw_7 t
  funext x
  unfold iblk
  rw [View.read_apply]
  show V m c main_arg7 _ = _
  rw [V_main_arg7]
  congr 1
  funext a
  apply Fin.ext
  match a with
  | ⟨0, _⟩ => show win0_7.index t (0 : Fin 2) * 512 + 1 * (x 0).val = (x 0).val; rw [e0]; omega
  | ⟨1, _⟩ => show win0_7.index t (1 : Fin 2) * 256 + 1 * (x 1).val = (x 1).val; rw [e1]; omega

/-- Window 9's block at any point is the whole of its argument. -/
theorem wblk_9 (c : Dev nD) (t : Fin cfg0.N) :
    (iblk m c 9 t : Vec Ideal S256x256 .f32) = m ((c.tc : Thread nD τ).loc main_arg9) := by
  obtain ⟨e0, e1⟩ := idxw_9 t
  funext x
  unfold iblk
  rw [View.read_apply]
  show V m c main_arg9 _ = _
  rw [V_main_arg9]
  congr 1
  funext a
  apply Fin.ext
  match a with
  | ⟨0, _⟩ => show win0_9.index t (0 : Fin 2) * 256 + 1 * (x 0).val = (x 0).val; rw [e0]; omega
  | ⟨1, _⟩ => show win0_9.index t (1 : Fin 2) * 256 + 1 * (x 1).val = (x 1).val; rw [e1]; omega

/-- Window 11's block at any point is the whole of its argument. -/
theorem wblk_11 (c : Dev nD) (t : Fin cfg0.N) :
    (iblk m c 11 t : Vec Ideal S256x256 .f32) = m ((c.tc : Thread nD τ).loc main_arg11) := by
  obtain ⟨e0, e1⟩ := idxw_11 t
  funext x
  unfold iblk
  rw [View.read_apply]
  show V m c main_arg11 _ = _
  rw [V_main_arg11]
  congr 1
  funext a
  apply Fin.ext
  match a with
  | ⟨0, _⟩ => show win0_11.index t (0 : Fin 2) * 256 + 1 * (x 0).val = (x 0).val; rw [e0]; omega
  | ⟨1, _⟩ => show win0_11.index t (1 : Fin 2) * 256 + 1 * (x 1).val = (x 1).val; rw [e1]; omega

/-- The host reshape before the region: main_v0 is main_arg2 as a 1 × 256 array. -/
theorem V_main_v0 (c : Dev nD) : (V m c main_v0 : Vec Ideal S1x256 .f32) = biasBlk (m ((c.tc : Thread nD τ).loc main_arg2)) := by
  have e : (V m c main_v0 : Vec Ideal S1x256 .f32)
      = shapeCast S1x256 (m ((c.tc : Thread nD τ).loc main_arg2) : Vec Ideal S256 .f32) shapeCasts_S256_S1x256 := by
    show StableHlo.after hostOps0 (fun b => m (c, b)) (Proc.devRef .tc main_v0) = _
    after_results
    rfl
  rw [e]
  funext x
  rw [eq_ix2 x]
  exact shapeCast_a_1a_apply _ _ _ _

/-- Window 2's block at any point is the whole reshaped bias. -/
theorem bblk_2 (c : Dev nD) (t : Fin cfg0.N) :
    (iblk m c 2 t : Vec Ideal S1x256 .f32) = biasBlk (m ((c.tc : Thread nD τ).loc main_arg2)) := by
  obtain ⟨e0, e1⟩ := idxw_2 t
  rw [← V_main_v0 m c]
  funext x
  unfold iblk
  rw [View.read_apply]
  show V m c main_v0 _ = V m c main_v0 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The host reshape before the region: main_v1 is main_arg4 as a 1 × 256 array. -/
theorem V_main_v1 (c : Dev nD) : (V m c main_v1 : Vec Ideal S1x256 .f32) = biasBlk (m ((c.tc : Thread nD τ).loc main_arg4)) := by
  have e : (V m c main_v1 : Vec Ideal S1x256 .f32)
      = shapeCast S1x256 (m ((c.tc : Thread nD τ).loc main_arg4) : Vec Ideal S256 .f32) shapeCasts_S256_S1x256 := by
    show StableHlo.after hostOps0 (fun b => m (c, b)) (Proc.devRef .tc main_v1) = _
    after_results
    rfl
  rw [e]
  funext x
  rw [eq_ix2 x]
  exact shapeCast_a_1a_apply _ _ _ _

/-- Window 4's block at any point is the whole reshaped bias. -/
theorem bblk_4 (c : Dev nD) (t : Fin cfg0.N) :
    (iblk m c 4 t : Vec Ideal S1x256 .f32) = biasBlk (m ((c.tc : Thread nD τ).loc main_arg4)) := by
  obtain ⟨e0, e1⟩ := idxw_4 t
  rw [← V_main_v1 m c]
  funext x
  unfold iblk
  rw [View.read_apply]
  show V m c main_v1 _ = V m c main_v1 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- The host reshape before the region: main_v2 is main_arg6 as a 1 × 256 array. -/
theorem V_main_v2 (c : Dev nD) : (V m c main_v2 : Vec Ideal S1x256 .f32) = biasBlk (m ((c.tc : Thread nD τ).loc main_arg6)) := by
  have e : (V m c main_v2 : Vec Ideal S1x256 .f32)
      = shapeCast S1x256 (m ((c.tc : Thread nD τ).loc main_arg6) : Vec Ideal S256 .f32) shapeCasts_S256_S1x256 := by
    show StableHlo.after hostOps0 (fun b => m (c, b)) (Proc.devRef .tc main_v2) = _
    after_results
    rfl
  rw [e]
  funext x
  rw [eq_ix2 x]
  exact shapeCast_a_1a_apply _ _ _ _

/-- Window 6's block at any point is the whole reshaped bias. -/
theorem bblk_6 (c : Dev nD) (t : Fin cfg0.N) :
    (iblk m c 6 t : Vec Ideal S1x256 .f32) = biasBlk (m ((c.tc : Thread nD τ).loc main_arg6)) := by
  obtain ⟨e0, e1⟩ := idxw_6 t
  rw [← V_main_v2 m c]
  funext x
  unfold iblk
  rw [View.read_apply]
  show V m c main_v2 _ = V m c main_v2 _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- The host reshape before the region: main_v3 is main_arg8 as a 1 × 256 array. -/
theorem V_main_v3 (c : Dev nD) : (V m c main_v3 : Vec Ideal S1x256 .f32) = biasBlk (m ((c.tc : Thread nD τ).loc main_arg8)) := by
  have e : (V m c main_v3 : Vec Ideal S1x256 .f32)
      = shapeCast S1x256 (m ((c.tc : Thread nD τ).loc main_arg8) : Vec Ideal S256 .f32) shapeCasts_S256_S1x256 := by
    show StableHlo.after hostOps0 (fun b => m (c, b)) (Proc.devRef .tc main_v3) = _
    after_results
    rfl
  rw [e]
  funext x
  rw [eq_ix2 x]
  exact shapeCast_a_1a_apply _ _ _ _

/-- Window 8's block at any point is the whole reshaped bias. -/
theorem bblk_8 (c : Dev nD) (t : Fin cfg0.N) :
    (iblk m c 8 t : Vec Ideal S1x256 .f32) = biasBlk (m ((c.tc : Thread nD τ).loc main_arg8)) := by
  obtain ⟨e0, e1⟩ := idxw_8 t
  rw [← V_main_v3 m c]
  funext x
  unfold iblk
  rw [View.read_apply]
  show V m c main_v3 _ = V m c main_v3 _
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 256 + 1 * (x 1).val = (x 1).val; rw [e1]; omega

/-- The host reshape before the region: main_v4 is main_arg10 as a 1 × 256 array. -/
theorem V_main_v4 (c : Dev nD) : (V m c main_v4 : Vec Ideal S1x256 .f32) = biasBlk (m ((c.tc : Thread nD τ).loc main_arg10)) := by
  have e : (V m c main_v4 : Vec Ideal S1x256 .f32)
      = shapeCast S1x256 (m ((c.tc : Thread nD τ).loc main_arg10) : Vec Ideal S256 .f32) shapeCasts_S256_S1x256 := by
    show StableHlo.after hostOps0 (fun b => m (c, b)) (Proc.devRef .tc main_v4) = _
    after_results
    rfl
  rw [e]
  funext x
  rw [eq_ix2 x]
  exact shapeCast_a_1a_apply _ _ _ _

/-- Window 10's block at any point is the whole reshaped bias. -/
theorem bblk_10 (c : Dev nD) (t : Fin cfg0.N) :
    (iblk m c 10 t : Vec Ideal S1x256 .f32) = biasBlk (m ((c.tc : Thread nD τ).loc main_arg10)) := by
  obtain ⟨e0, e1⟩ := idxw_10 t
  rw [← V_main_v4 m c]
  funext x
  unfold iblk
  rw [View.read_apply]
  show V m c main_v4 _ = V m c main_v4 _
  congr 1
  funext a
  apply Fin.ext
  match a with
  | ⟨0, _⟩ => show win0_10.index t (0 : Fin 2) * 1 + 1 * (x 0).val = (x 0).val; rw [e0]; omega
  | ⟨1, _⟩ => show win0_10.index t (1 : Fin 2) * 256 + 1 * (x 1).val = (x 1).val; rw [e1]; omega

/-- The host reshape before the region: main_v5 is main_arg12 as a 1 × 256 array. -/
theorem V_main_v5 (c : Dev nD) : (V m c main_v5 : Vec Ideal S1x256 .f32) = biasBlk (m ((c.tc : Thread nD τ).loc main_arg12)) := by
  have e : (V m c main_v5 : Vec Ideal S1x256 .f32)
      = shapeCast S1x256 (m ((c.tc : Thread nD τ).loc main_arg12) : Vec Ideal S256 .f32) shapeCasts_S256_S1x256 := by
    show StableHlo.after hostOps0 (fun b => m (c, b)) (Proc.devRef .tc main_v5) = _
    after_results
    rfl
  rw [e]
  funext x
  rw [eq_ix2 x]
  exact shapeCast_a_1a_apply _ _ _ _

/-- Window 12's block at any point is the whole reshaped bias. -/
theorem bblk_12 (c : Dev nD) (t : Fin cfg0.N) :
    (iblk m c 12 t : Vec Ideal S1x256 .f32) = biasBlk (m ((c.tc : Thread nD τ).loc main_arg12)) := by
  obtain ⟨e0, e1⟩ := idxw_12 t
  rw [← V_main_v5 m c]
  funext x
  unfold iblk
  rw [View.read_apply]
  show V m c main_v5 _ = V m c main_v5 _
  congr 1
  funext a
  apply Fin.ext
  match a with
  | ⟨0, _⟩ => show win0_12.index t (0 : Fin 2) * 1 + 1 * (x 0).val = (x 0).val; rw [e0]; omega
  | ⟨1, _⟩ => show win0_12.index t (1 : Fin 2) * 256 + 1 * (x 1).val = (x 1).val; rw [e1]; omega

/-! ## From blocks to the arrays -/

/-- The readout array the region leaves, 128 × 1 × 256: row β is jet β's readout. -/
def outArr (c : Dev nD) : Vec Ideal S128x1x256 .f32 := fun i =>
  Jet.jetOut (F := Ideal) (jetRow m c (i 0)) (m ((c.tc : Thread nD τ).loc main_arg1)) (biasBlk (m ((c.tc : Thread nD τ).loc main_arg2))) (m ((c.tc : Thread nD τ).loc main_arg3)) (biasBlk (m ((c.tc : Thread nD τ).loc main_arg4))) (m ((c.tc : Thread nD τ).loc main_arg5)) (biasBlk (m ((c.tc : Thread nD τ).loc main_arg6))) (m ((c.tc : Thread nD τ).loc main_arg7)) (biasBlk (m ((c.tc : Thread nD τ).loc main_arg8))) (m ((c.tc : Thread nD τ).loc main_arg9)) (biasBlk (m ((c.tc : Thread nD τ).loc main_arg10))) (m ((c.tc : Thread nD τ).loc main_arg11)) (biasBlk (m ((c.tc : Thread nD τ).loc main_arg12))) (ix3 0 0 (i 2))

/-- A point's readout block, over the whole weights and a jets block whose row is the array's, is the array there. -/
theorem out_at (c : Dev nD) (J : Vec Ideal S16x200x8 .f32) (y : S16x1x256.Idx) (i : S128x1x256.Idx)
    (hJ : rowOf J (y 0) = jetRow m c (i 0)) (h2 : (i 2).val = (y 2).val) :
    blockOut J (m ((c.tc : Thread nD τ).loc main_arg1)) (biasBlk (m ((c.tc : Thread nD τ).loc main_arg2))) (m ((c.tc : Thread nD τ).loc main_arg3)) (biasBlk (m ((c.tc : Thread nD τ).loc main_arg4))) (m ((c.tc : Thread nD τ).loc main_arg5)) (biasBlk (m ((c.tc : Thread nD τ).loc main_arg6))) (m ((c.tc : Thread nD τ).loc main_arg7)) (biasBlk (m ((c.tc : Thread nD τ).loc main_arg8))) (m ((c.tc : Thread nD τ).loc main_arg9)) (biasBlk (m ((c.tc : Thread nD τ).loc main_arg10))) (m ((c.tc : Thread nD τ).loc main_arg11)) (biasBlk (m ((c.tc : Thread nD τ).loc main_arg12))) y = outArr m c i := by
  unfold blockOut outArr
  rw [hJ]
  have e : (y 2 : Fin 256) = i 2 := Fin.ext h2.symm
  rw [e]

/-- A point's adjacency block, likewise. -/
theorem adj_at (c : Dev nD) (J : Vec Ideal S16x200x8 .f32) (y : S16x200x200.Idx) (i : S128x200x200.Idx)
    (hJ : rowOf J (y 0) = jetRow m c (i 0)) (h1 : (i 1).val = (y 1).val) (h2 : (i 2).val = (y 2).val) :
    blockAdj J (m ((c.tc : Thread nD τ).loc main_arg1)) (biasBlk (m ((c.tc : Thread nD τ).loc main_arg2))) (m ((c.tc : Thread nD τ).loc main_arg3)) (biasBlk (m ((c.tc : Thread nD τ).loc main_arg4))) (m ((c.tc : Thread nD τ).loc main_arg5)) (biasBlk (m ((c.tc : Thread nD τ).loc main_arg6))) (m ((c.tc : Thread nD τ).loc main_arg7)) (biasBlk (m ((c.tc : Thread nD τ).loc main_arg8))) (m ((c.tc : Thread nD τ).loc main_arg9)) (biasBlk (m ((c.tc : Thread nD τ).loc main_arg10))) (m ((c.tc : Thread nD τ).loc main_arg11)) (biasBlk (m ((c.tc : Thread nD τ).loc main_arg12))) y = adjK m c i := by
  unfold blockAdj adjK
  rw [hJ]
  have e1 : (y 1 : Fin 200) = i 1 := Fin.ext h1.symm
  have e2 : (y 2 : Fin 200) = i 2 := Fin.ext h2.symm
  rw [e1, e2]

/-- WHAT POINT t WRITES BACK to the readout array is block t of outArr. -/
theorem flushed13 (c : Dev nD) (t : Fin cfg0.N) :
    (dats m 0 c).flushed 13 t = ((cfg0.win 13).blk t).view.read (Elt Ideal) (outArr m c) := by
  obtain ⟨-, -, -, e0, e1, e2, -⟩ := idx_facts t
  show (cfg0.win 13).cut (grid0.coords t) ((dats m 0 c).after 13 t) = _
  rw [after0_13]
  funext y
  refine (congrFun (out_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) y).trans ?_
  rw [wblk_1 m c t, bblk_2 m c t, wblk_3 m c t, bblk_4 m c t, wblk_5 m c t, bblk_6 m c t, wblk_7 m c t, bblk_8 m c t, wblk_9 m c t, bblk_10 m c t, wblk_11 m c t, bblk_12 m c t]
  rw [View.read_apply]
  refine out_at m c (iblk m c 0 t) y (((cfg0.win 13).blk t).view.emb y) (jets_row m c t (y 0) _ ?_) ?_
  · show win0_13.index t (0 : Fin 3) * 16 + 1 * (y 0).val = 16 * t.val + (y 0).val
    rw [e0]; omega
  · show win0_13.index t (2 : Fin 3) * 256 + 1 * (y 2).val = (y 2).val
    rw [e2]; omega

/-- WHAT POINT t WRITES BACK to the adjacency array is block t of adjK. -/
theorem flushed14 (c : Dev nD) (t : Fin cfg0.N) :
    (dats m 0 c).flushed 14 t = ((cfg0.win 14).blk t).view.read (Elt Ideal) (adjK m c) := by
  obtain ⟨-, -, -, -, -, -, e0, e1, e2⟩ := idx_facts t
  show (cfg0.win 14).cut (grid0.coords t) ((dats m 0 c).after 14 t) = _
  rw [after0_14]
  funext y
  refine (congrFun (adj_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) y).trans ?_
  rw [wblk_1 m c t, bblk_2 m c t, wblk_3 m c t, bblk_4 m c t, wblk_5 m c t, bblk_6 m c t, wblk_7 m c t, bblk_8 m c t, wblk_9 m c t, bblk_10 m c t, wblk_11 m c t, bblk_12 m c t]
  rw [View.read_apply]
  refine adj_at m c (iblk m c 0 t) y (((cfg0.win 14).blk t).view.emb y) (jets_row m c t (y 0) _ ?_) ?_ ?_
  · show win0_14.index t (0 : Fin 3) * 16 + 1 * (y 0).val = 16 * t.val + (y 0).val
    rw [e0]; omega
  · show win0_14.index t (1 : Fin 3) * 200 + 1 * (y 1).val = (y 1).val
    rw [e1]; omega
  · show win0_14.index t (2 : Fin 3) * 200 + 1 * (y 2).val = (y 2).val
    rw [e2]; omega

/-- An index of the readout array is in point t's block iff each coordinate is in the block's range. -/
theorem mem_blk13 (t : Fin cfg0.N) (i : S128x1x256.Idx) :
    i ∈ ((cfg0.win 13).blk t).view.set ↔ ∀ a : Fin 3, win0_13.index t a * S16x1x256.size a ≤ (i a).val ∧ (i a).val < win0_13.index t a * S16x1x256.size a + S16x1x256.size a := by
  show i ∈ ((View.whole main_v6_0).slice (win0_13.rect t)).set ↔ _
  rw [View.set_slice_whole, Rect.mem_set_unit]
  exact Iff.rfl

/-- Likewise for the adjacency array. -/
theorem mem_blk14 (t : Fin cfg0.N) (i : S128x200x200.Idx) :
    i ∈ ((cfg0.win 14).blk t).view.set ↔ ∀ a : Fin 3, win0_14.index t a * S16x200x200.size a ≤ (i a).val ∧ (i a).val < win0_14.index t a * S16x200x200.size a + S16x200x200.size a := by
  show i ∈ ((View.whole main_v6_1).slice (win0_14.rect t)).set ↔ _
  rw [View.set_slice_whole, Rect.mem_set_unit]
  exact Iff.rfl

/-- Row r of either output lies in the block of point r / 16. -/
theorem point_of_row (r : Nat) (hr : r < 128) : ∃ t : Fin cfg0.N, t.val = r / 16 :=
  ⟨⟨r / 16, by rw [show cfg0.N = 8 from N_0]; omega⟩, rfl⟩

/-- The eight blocks cover the readout array. -/
theorem cover13 (i : S128x1x256.Idx) :
    ∃ t : Fin cfg0.N, (cfg0.win 13).flush t = true ∧ i ∈ ((cfg0.win 13).blk t).view.set := by
  have h0 : (i 0).val < 128 := (i 0).isLt
  have h1 : (i 1).val < 1 := (i 1).isLt
  have h2 : (i 2).val < 256 := (i 2).isLt
  obtain ⟨t, ht⟩ := point_of_row (i 0).val h0
  obtain ⟨-, -, -, e0, e1, e2, -⟩ := idx_facts t
  refine ⟨t, flush0_13 t, ?_⟩
  rw [mem_blk13]
  intro a
  match a with
  | ⟨0, _⟩ => show win0_13.index t (0 : Fin 3) * 16 ≤ (i 0).val ∧ (i 0).val < win0_13.index t (0 : Fin 3) * 16 + 16; rw [e0, ht]; omega
  | ⟨1, _⟩ => show win0_13.index t (1 : Fin 3) * 1 ≤ (i 1).val ∧ (i 1).val < win0_13.index t (1 : Fin 3) * 1 + 1; rw [e1]; omega
  | ⟨2, _⟩ => show win0_13.index t (2 : Fin 3) * 256 ≤ (i 2).val ∧ (i 2).val < win0_13.index t (2 : Fin 3) * 256 + 256; rw [e2]; omega

/-- The eight blocks cover the adjacency array. -/
theorem cover14 (i : S128x200x200.Idx) :
    ∃ t : Fin cfg0.N, (cfg0.win 14).flush t = true ∧ i ∈ ((cfg0.win 14).blk t).view.set := by
  have h0 : (i 0).val < 128 := (i 0).isLt
  have h1 : (i 1).val < 200 := (i 1).isLt
  have h2 : (i 2).val < 200 := (i 2).isLt
  obtain ⟨t, ht⟩ := point_of_row (i 0).val h0
  obtain ⟨-, -, -, -, -, -, e0, e1, e2⟩ := idx_facts t
  refine ⟨t, flush0_14 t, ?_⟩
  rw [mem_blk14]
  intro a
  match a with
  | ⟨0, _⟩ => show win0_14.index t (0 : Fin 3) * 16 ≤ (i 0).val ∧ (i 0).val < win0_14.index t (0 : Fin 3) * 16 + 16; rw [e0, ht]; omega
  | ⟨1, _⟩ => show win0_14.index t (1 : Fin 3) * 200 ≤ (i 1).val ∧ (i 1).val < win0_14.index t (1 : Fin 3) * 200 + 200; rw [e1]; omega
  | ⟨2, _⟩ => show win0_14.index t (2 : Fin 3) * 200 ≤ (i 2).val ∧ (i 2).val < win0_14.index t (2 : Fin 3) * 200 + 200; rw [e2]; omega

/-- THE READOUT ARRAY after the region is outArr. -/
theorem final13 (c : Dev nD) : (dats m 0 c).arrAt 13 cfg0.N = outArr m c :=
  (dats m 0 c).arrAt_eq_of_cover 13 (outArr m c) (fun t _ => flushed13 m c t) cover13

/-- THE ADJACENCY ARRAY after the region is adjK. -/
theorem final14 (c : Dev nD) : (dats m 0 c).arrAt 14 cfg0.N = adjK m c :=
  (dats m 0 c).arrAt_eq_of_cover 14 (adjK m c) (fun t _ => flushed14 m c t) cover14

/-- The host reshape after the region: the result is the readout array with its unit axis dropped. -/
theorem tail_v7 (c : Dev nD) :
    Pipeline.afterTail₀ cfgs (dats m) 0 (V0 m) [hostOps1] c main_v7 = outK m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = outArr m c :=
    (Pipeline.withArrays_arr spec0 launch0.win.arr_inj c _ _ 13).trans (final13 m c)
  rw [e]
  funext i
  show shapeCast S128x256 (outArr m c) shapeCasts_S128x1x256_S128x256 i = outK m c i
  refine (shapeCast_apply (outArr m c) shapeCasts_S128x1x256_S128x256 i (ix3 (i 0) 0 (i 1)) ?_).trans ?_
  · rw [Shape.rowMajor_val_three, Shape.rowMajor_val_two]
    show ((i 0).val * 1 + 0) * 256 + (i 1).val = (i 0).val * 256 + (i 1).val
    omega
  · rfl

/-- Every weakly fair execution of the kernel program ends with the two results at outK and adjK and
    the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = outK m c
      ∧ r.2.mem ((c.tc : Thread nD τ).loc main_v6_1) = adjK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => ⟨
      ((h c).2 main_v7 (Pipeline.mem_restRefs_of main_v7 (by decide) (by decide))).trans (tail_v7 m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩) (run_main m ρ)

end Cert.KernelIdeal.KValue

end
-- ==== Proof.RefSpec.lean ====
/-
  The reference's computation, layer by layer, as it is printed: every operation acts on all 128 jets
  at once (a leading batch axis), the biases are broadcast through a 1 × 1 × 256 array, the softmax's
  row maximum is joined once more with −∞, the update multiplies the concatenation [h, A·h] along the
  feature axis by the whole 512 × 256 weight, and the readout adds its bias before summing over the
  200 particles.  Stated once, at any float instance, over the reference's own shapes.
-/
import proofs.«163898_g85813446574462_cont_9to1c4b_288_12_alg».proof.Proof.Gen.ReferenceIdeal

noncomputable section

namespace Cert.ReferenceIdeal.Batched

open Idealize.ShloMosaic Idealize.SL.Sem Cert.ReferenceIdeal Cert.ReferenceIdeal.Gen

variable {F : FTy → Type} [FloatOps F]

/-- A bias vector laid along the feature axis of a 128 × 200 × 256 array. -/
def biasB (b : FVec F S256 .f32) : FVec F S128x200x256 .f32 :=
  broadcastInDim S128x200x256 ![0, 1, 2] bcast_S1x1x256_S128x200x256_0_1_2 (broadcastInDim S1x1x256 ![2] bcast_S256_S1x1x256_2 b)

/-- A per-row value (128 × 200) laid along the last axis of a 128 × 200 × 200 array. -/
def rowsB (r : FVec F S128x200 .f32) : FVec F S128x200x200 .f32 :=
  broadcastInDim S128x200x200 ![0, 1, 2] bcast_S128x200x1_S128x200x200_0_1_2 (broadcastInDim S128x200x1 ![0, 1] bcast_S128x200_S128x200x1_0_1 r)

/-- The embedding of every jet. -/
def embedB (J : FVec F S128x200x8 .f32) (W : FVec F S8x256 .f32) (b : FVec F S256 .f32) : FVec F S128x200x256 .f32 :=
  Host.tanh (addf (Host.dotGeneral dot_S128x200x8_S8x256_S128x200x256_2_0_01_1_n_n none J W) (biasB b))

/-- The scaled Gram matrices. -/
def logitsB (H : FVec F S128x200x256 .f32) : FVec F S128x200x200 .f32 :=
  mulf (Host.dotGeneral dot_S128x200x256_S128x200x256_S128x200x200_2_2_1_1_0_0 none H H)
    (broadcastInDim S128x200x200 ![] bcast_S_S128x200x200 (constant S_ .f32 0x3D800000#32))

/-- exp(l − its row's maximum), the maximum joined once more with −∞. -/
def expShiftB (L : FVec F S128x200x200 .f32) : FVec F S128x200x200 .f32 :=
  Host.exp (subf L (rowsB (maximumf (broadcastInDim S128x200 ![] bcast_S_S128x200 (constant S_ .f32 0xFF800000#32))
    (Host.reduce FloatOps.maximumf L (constant S_ .f32 0xFF800000#32) reducesTo_S128x200x200_S128x200_d2 h_S_))))

/-- Each row divided by its sum. -/
def normRowsB (E : FVec F S128x200x200 .f32) : FVec F S128x200x200 .f32 :=
  Host.divf E (rowsB (Host.reduceAdd E (constant S_ .f32 0x00000000#32) reducesTo_S128x200x200_S128x200_d2 h_S_))

/-- The soft adjacencies. -/
def adjacencyB (H : FVec F S128x200x256 .f32) : FVec F S128x200x200 .f32 :=
  normRowsB (expShiftB (logitsB H))

/-- One round of message passing, on the concatenation [h, A·h]. -/
def updateB (H : FVec F S128x200x256 .f32) (W : FVec F S512x256 .f32) (b : FVec F S256 .f32) : FVec F S128x200x256 .f32 :=
  Host.tanh (addf
    (Host.dotGeneral dot_S128x200x512_S512x256_S128x200x256_2_0_01_1_n_n none
      (concatenate S128x200x512 2 [⟨S128x200x256, H⟩,
        ⟨S128x200x256, Host.dotGeneral dot_S128x200x200_S128x200x256_S128x200x256_2_1_1_2_0_0 none (adjacencyB H) H⟩]
        concatenates_S128x200x256_S128x200x256_S128x200x512_d2)
      W)
    (biasB b))

/-- A dense layer on 256 features. -/
def denseB (H : FVec F S128x200x256 .f32) (W : FVec F S256x256 .f32) (b : FVec F S256 .f32) : FVec F S128x200x256 .f32 :=
  Host.tanh (addf (Host.dotGeneral dot_S128x200x256_S256x256_S128x200x256_2_0_01_1_n_n none H W) (biasB b))

/-- The readout: the second dense product with its bias added, summed over the 200 particles. -/
def readoutB (H : FVec F S128x200x256 .f32) (W1 : FVec F S256x256 .f32) (b1 : FVec F S256 .f32)
    (W2 : FVec F S256x256 .f32) (b2 : FVec F S256 .f32) : FVec F S128x256 .f32 :=
  Host.reduceAdd
    (addf (Host.dotGeneral dot_S128x200x256_S256x256_S128x200x256_2_0_01_1_n_n none (denseB H W1 b1) W2) (biasB b2))
    (constant S_ .f32 0x00000000#32) reducesTo_S128x200x256_S128x256_d1 h_S_

/-- The hidden states entering the third round. -/
def hidden2B (J : FVec F S128x200x8 .f32) (We : FVec F S8x256 .f32) (be : FVec F S256 .f32)
    (W0 : FVec F S512x256 .f32) (b0 : FVec F S256 .f32) (W1 : FVec F S512x256 .f32) (b1 : FVec F S256 .f32) :
    FVec F S128x200x256 .f32 :=
  updateB (updateB (embedB J We be) W0 b0) W1 b1

end Cert.ReferenceIdeal.Batched

end
-- ==== Proof.RefRun.lean ====
/-
  What the reference program leaves in its two results.

  The program is a straight line of 93 host operations.  Read in four stretches — the embedding with the
  first adjacency and message; then, three times, a round of message passing from the previous hidden
  state and message (the concatenation, the product with the round's weight, the bias, tanh) followed by
  the next adjacency and message, the last stretch ending with the readout instead — each stretch's
  results are the batched layers of RefSpec applied to what the stretch found, and nothing else it
  leaves is read later except the arguments, which no operation writes.  Composed, the adjacency result
  is the third adjacency and the readout result the readout of the third round's state.
-/
import proofs.«163898_g85813446574462_cont_9to1c4b_288_12_alg».proof.Proof.RefRunBase
import proofs.«163898_g85813446574462_cont_9to1c4b_288_12_alg».proof.Proof.RefSpec

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunBase Cert.ReferenceIdeal.Batched

variable {F : FTy → Type} [FloatOps F]

/-! ## A round, from a state and its message -/

/-- The message A(h)·h of every jet. -/
def messageB (H : FVec F S128x200x256 .f32) : FVec F S128x200x256 .f32 :=
  Host.dotGeneral dot_S128x200x200_S128x200x256_S128x200x256_2_1_1_2_0_0 none (adjacencyB H) H

/-- A round of message passing from a state h and a message M: tanh([h, M]·W + b). -/
def updateWith (H M : FVec F S128x200x256 .f32) (W : FVec F S512x256 .f32) (b : FVec F S256 .f32) : FVec F S128x200x256 .f32 :=
  Host.tanh (addf
    (Host.dotGeneral dot_S128x200x512_S512x256_S128x200x256_2_0_01_1_n_n none
      (concatenate S128x200x512 2 [⟨S128x200x256, H⟩, ⟨S128x200x256, M⟩] concatenates_S128x200x256_S128x200x256_S128x200x512_d2)
      W)
    (biasB b))

/-- A round is the round from the state's own message. -/
theorem updateB_eq (H : FVec F S128x200x256 .f32) (W : FVec F S512x256 .f32) (b : FVec F S256 .f32) :
    updateB H W b = updateWith H (messageB H) W b := rfl

/-! ## Operations run one stretch after another -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line is the four stretches in turn. -/
theorem after_ops (V : Valuation τ sig (Elt F)) :
    after (ops (F := F)) V = after ops3 (after ops2 (after ops1 (after ops0 V))) := by
  show after ((ops0 ++ (ops1 ++ ops2a)) ++ (ops2b ++ ops3)) V = _
  simp only [after_append]
  rw [← after_append ops2a ops2b, ops2_split]

/-! ## What each stretch writes, and what it keeps -/

local macro "w1" : term => `(by simp only [nullary_writes, unary_writes, binary_writes, ternary_writes, quaternary_writes, reshape_writes, binaryIndexed_writes, nary_writes, unaryIndexed_writes, Finset.singleton_subset_iff, List.mem_toFinset]; exact List.mem_map_of_mem (by decide))

/-- The buffers window 0's operations write. -/
abbrev wrote0 : List (Ref sig .tc) := [main_v0, main_v1, main_v2, main_v3, main_v4, main_cst, main_v5, main_v6, main_cst_0, main_v7, main_v8, main_cst_1, main_v9, main_cst_2, main_v10, main_v11, main_v12, main_v13, main_v14, main_v15, main_cst_3, main_v16, main_v17, main_v18, main_v19, main_v20]
theorem ops0_writes : (ops0 : List (HloOp τ sig (Elt F))).Forall fun op =>
    op.writes ⊆ (wrote0.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1⟩
/-- A buffer window 0 does not write keeps its contents through it. -/
theorem keep0 (V : Valuation τ sig (Elt F)) (r : Ref sig .tc) (h : r ∉ wrote0) :
    after ops0 V (Proc.devRef .tc r) = V (Proc.devRef .tc r) :=
  after_of_writes_sub ops0 V ops0_writes h

/-- The buffers window 1's operations write. -/
abbrev wrote1 : List (Ref sig .tc) := [main_v21, main_v22, main_v23, main_v24, main_v25, main_v26, main_v27, main_cst_4, main_v28, main_v29, main_cst_5, main_v30, main_cst_6, main_v31, main_v32, main_v33, main_v34, main_v35, main_v36, main_cst_7, main_v37, main_v38, main_v39, main_v40, main_v41]
theorem ops1_writes : (ops1 : List (HloOp τ sig (Elt F))).Forall fun op =>
    op.writes ⊆ (wrote1.map (Proc.devRef (τ := τ) .tc)).toFinset := by
  simp only [List.Forall]
  exact ⟨w1, w1, w1, w1, w1, w1, w1, w1, w1, w1, w1, w1, w1, w1, w1, w1, w1, w1, w1, w1, w1, w1, w1, w1, w1⟩
/-- A buffer window 1 does not write keeps its contents through it. -/
theorem keep1 (V : Valuation τ sig (Elt F)) (r : Ref sig .tc) (h : r ∉ wrote1) :
    after ops1 V (Proc.devRef .tc r) = V (Proc.devRef .tc r) :=
  after_of_writes_sub ops1 V ops1_writes h

/-- The buffers window 2's operations write. -/
abbrev wrote2 : List (Ref sig .tc) := [main_v42, main_v43, main_v44, main_v45, main_v46, main_v47, main_v48, main_cst_8, main_v49, main_v50, main_cst_9, main_v51, main_cst_10, main_v52, main_v53, main_v54, main_v55, main_v56, main_v57, main_cst_11, main_v58, main_v59, main_v60, main_v61, main_v62]
theorem ops2_writes : (ops2 : List (HloOp τ sig (Elt F))).Forall fun op =>
    op.writes ⊆ (wrote2.map (Proc.devRef (τ := τ) .tc)).toFinset := by
  simp only [List.Forall]
  exact ⟨w1, w1, w1, w1, w1, w1, w1, w1, w1, w1, w1, w1, w1, w1, w1, w1, w1, w1, w1, w1, w1, w1, w1, w1, w1⟩
/-- A buffer window 2 does not write keeps its contents through it. -/
theorem keep2 (V : Valuation τ sig (Elt F)) (r : Ref sig .tc) (h : r ∉ wrote2) :
    after ops2 V (Proc.devRef .tc r) = V (Proc.devRef .tc r) :=
  after_of_writes_sub ops2 V ops2_writes h

/-- The buffers window 3's operations write. -/
abbrev wrote3 : List (Ref sig .tc) := [main_v63, main_v64, main_v65, main_v66, main_v67, main_v68, main_v69, main_v70, main_v71, main_v72, main_v73, main_v74, main_v75, main_v76, main_v77, main_cst_12, main_v78]
theorem ops3_writes : (ops3 : List (HloOp τ sig (Elt F))).Forall fun op =>
    op.writes ⊆ (wrote3.map (Proc.devRef (τ := τ) .tc)).toFinset := by
  simp only [List.Forall]
  exact ⟨w1, w1, w1, w1, w1, w1, w1, w1, w1, w1, w1, w1, w1, w1, w1, w1, w1⟩
/-- A buffer window 3 does not write keeps its contents through it. -/
theorem keep3 (V : Valuation τ sig (Elt F)) (r : Ref sig .tc) (h : r ∉ wrote3) :
    after ops3 V (Proc.devRef .tc r) = V (Proc.devRef .tc r) :=
  after_of_writes_sub ops3 V ops3_writes h

/-- A buffer no operation writes keeps its launch contents to the end. -/
theorem keep_all (V : Valuation τ sig (Elt F)) (r : Ref sig .tc) (h0 : r ∉ wrote0) (h1 : r ∉ wrote1) (h2 : r ∉ wrote2) (h3 : r ∉ wrote3) :
    after (ops (F := F)) V (Proc.devRef .tc r) = V (Proc.devRef .tc r) := by
  rw [after_ops, keep3 _ r h3, keep2 _ r h2, keep1 _ r h1, keep0 _ r h0]

/-! ## The stretches' results -/

section Stretches

variable (V : Valuation τ sig (Elt F))

/-- After the first stretch: the embedded state … -/
theorem first_state : after ops0 V (Proc.devRef .tc main_v4) = embedB (V (Proc.devRef .tc main_arg0)) (V (Proc.devRef .tc main_arg1)) (V (Proc.devRef .tc main_arg2)) := by
  after_results_simp <;> rfl
/-- … and its message. -/
theorem first_message : after ops0 V (Proc.devRef .tc main_v20) = messageB (embedB (V (Proc.devRef .tc main_arg0)) (V (Proc.devRef .tc main_arg1)) (V (Proc.devRef .tc main_arg2))) := by
  after_results_simp <;> rfl

/-- After the second stretch: the first round's state, from the state and message it found … -/
theorem second_state : after ops1 V (Proc.devRef .tc main_v26)
    = updateWith (V (Proc.devRef .tc main_v4)) (V (Proc.devRef .tc main_v20)) (V (Proc.devRef .tc main_arg3)) (V (Proc.devRef .tc main_arg4)) := by
  after_results_simp <;> rfl
/-- … and that state's message. -/
theorem second_message : after ops1 V (Proc.devRef .tc main_v41)
    = messageB (updateWith (V (Proc.devRef .tc main_v4)) (V (Proc.devRef .tc main_v20)) (V (Proc.devRef .tc main_arg3)) (V (Proc.devRef .tc main_arg4))) := by
  after_results_simp <;> rfl

/-- After the third stretch: the second round's state … -/
theorem third_state : after ops2 V (Proc.devRef .tc main_v47)
    = updateWith (V (Proc.devRef .tc main_v26)) (V (Proc.devRef .tc main_v41)) (V (Proc.devRef .tc main_arg5)) (V (Proc.devRef .tc main_arg6)) := by
  after_results_simp <;> rfl
/-- … its adjacency … -/
theorem third_adjacency : after ops2 V (Proc.devRef .tc main_v61)
    = adjacencyB (updateWith (V (Proc.devRef .tc main_v26)) (V (Proc.devRef .tc main_v41)) (V (Proc.devRef .tc main_arg5)) (V (Proc.devRef .tc main_arg6))) := by
  after_results_simp <;> rfl
/-- … and its message. -/
theorem third_message : after ops2 V (Proc.devRef .tc main_v62)
    = messageB (updateWith (V (Proc.devRef .tc main_v26)) (V (Proc.devRef .tc main_v41)) (V (Proc.devRef .tc main_arg5)) (V (Proc.devRef .tc main_arg6))) := by
  after_results_simp <;> rfl

/-- After the last stretch: the readout of the third round's state. -/
theorem last_readout : after ops3 V (Proc.devRef .tc main_v78)
    = readoutB (updateWith (V (Proc.devRef .tc main_v47)) (V (Proc.devRef .tc main_v62)) (V (Proc.devRef .tc main_arg7)) (V (Proc.devRef .tc main_arg8))) (V (Proc.devRef .tc main_arg9)) (V (Proc.devRef .tc main_arg10)) (V (Proc.devRef .tc main_arg11)) (V (Proc.devRef .tc main_arg12)) := by
  after_results_simp <;> rfl

end Stretches

/-! ## Composed -/

section Composed

variable (V : Valuation τ sig (Elt F))

/-- The hidden state entering the third round, of the launch contents. -/
def state2 : FVec F S128x200x256 .f32 := hidden2B (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))

theorem state_after2 : after ops1 (after ops0 V) (Proc.devRef .tc main_v26)
    = updateB (embedB (V (Proc.devRef .tc main_arg0)) (V (Proc.devRef .tc main_arg1)) (V (Proc.devRef .tc main_arg2))) (V (Proc.devRef .tc main_arg3)) (V (Proc.devRef .tc main_arg4)) := by
  rw [second_state, first_state, first_message, keep0 V main_arg3 (by decide), keep0 V main_arg4 (by decide), ← updateB_eq]

theorem message_after2 : after ops1 (after ops0 V) (Proc.devRef .tc main_v41)
    = messageB (updateB (embedB (V (Proc.devRef .tc main_arg0)) (V (Proc.devRef .tc main_arg1)) (V (Proc.devRef .tc main_arg2))) (V (Proc.devRef .tc main_arg3)) (V (Proc.devRef .tc main_arg4))) := by
  rw [second_message, first_state, first_message, keep0 V main_arg3 (by decide), keep0 V main_arg4 (by decide), ← updateB_eq]

theorem state_after3 : after ops2 (after ops1 (after ops0 V)) (Proc.devRef .tc main_v47) = state2 V := by
  rw [third_state, state_after2, message_after2,
    keep1 _ main_arg5 (by decide), keep1 _ main_arg6 (by decide), keep0 V main_arg5 (by decide), keep0 V main_arg6 (by decide),
    ← updateB_eq]
  rfl

theorem message_after3 : after ops2 (after ops1 (after ops0 V)) (Proc.devRef .tc main_v62) = messageB (state2 V) := by
  rw [third_message, state_after2, message_after2,
    keep1 _ main_arg5 (by decide), keep1 _ main_arg6 (by decide), keep0 V main_arg5 (by decide), keep0 V main_arg6 (by decide),
    ← updateB_eq]
  rfl

/-- The adjacency result, of the launch contents. -/
theorem adjacency_result : after (ops (F := F)) V (Proc.devRef .tc main_v61) = adjacencyB (state2 V) := by
  rw [after_ops, keep3 _ main_v61 (by decide), third_adjacency, state_after2, message_after2,
    keep1 _ main_arg5 (by decide), keep1 _ main_arg6 (by decide), keep0 V main_arg5 (by decide), keep0 V main_arg6 (by decide),
    ← updateB_eq]
  rfl

/-- The readout result, of the launch contents. -/
theorem readout_result : after (ops (F := F)) V (Proc.devRef .tc main_v78)
    = readoutB (updateB (state2 V) (V (Proc.devRef .tc main_arg7)) (V (Proc.devRef .tc main_arg8))) (V (Proc.devRef .tc main_arg9)) (V (Proc.devRef .tc main_arg10)) (V (Proc.devRef .tc main_arg11)) (V (Proc.devRef .tc main_arg12)) := by
  rw [after_ops, last_readout, state_after3, message_after3,
    keep2 _ main_arg7 (by decide), keep1 _ main_arg7 (by decide), keep0 V main_arg7 (by decide),
    keep2 _ main_arg8 (by decide), keep1 _ main_arg8 (by decide), keep0 V main_arg8 (by decide),
    keep2 _ main_arg9 (by decide), keep1 _ main_arg9 (by decide), keep0 V main_arg9 (by decide),
    keep2 _ main_arg10 (by decide), keep1 _ main_arg10 (by decide), keep0 V main_arg10 (by decide),
    keep2 _ main_arg11 (by decide), keep1 _ main_arg11 (by decide), keep0 V main_arg11 (by decide),
    keep2 _ main_arg12 (by decide), keep1 _ main_arg12 (by decide), keep0 V main_arg12 (by decide),
    ← updateB_eq]

end Composed

/-! ## The run -/

variable (m : (ℓ : Loc nD τ sig) → Buf (Elt F) ℓ)

/-- The adjacency the reference returns. -/
def refAdj (c : Dev nD) : FVec F S128x200x200 .f32 :=
  adjacencyB (hidden2B (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))

/-- The readout the reference returns. -/
def refOut (c : Dev nD) : FVec F S128x256 .f32 :=
  readoutB (updateB (hidden2B (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12))

/-- Every weakly fair execution of the reference ends with its two results at refOut and refAdj and the
    arguments unchanged. -/
theorem ref_run (ρ : Dev nD → PrngReg) :
    θ_run defs (onTc (τ := τ) (main (F := F))) ⟨m, fun _ => 0, ρ⟩ (fun r => ∀ c : Dev nD,
      r.2.mem ((c.tc : Thread nD τ).loc main_v78) = refOut m c
      ∧ r.2.mem ((c.tc : Thread nD τ).loc main_v61) = refAdj m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v78).trans (readout_result (launchContents m c)),
      (h c main_v61).trans (adjacency_result (launchContents m c)),
      (h c main_arg0).trans (keep_all (launchContents m c) main_arg0 (by decide) (by decide) (by decide) (by decide)),
      (h c main_arg1).trans (keep_all (launchContents m c) main_arg1 (by decide) (by decide) (by decide) (by decide)),
      (h c main_arg2).trans (keep_all (launchContents m c) main_arg2 (by decide) (by decide) (by decide) (by decide)),
      (h c main_arg3).trans (keep_all (launchContents m c) main_arg3 (by decide) (by decide) (by decide) (by decide)),
      (h c main_arg4).trans (keep_all (launchContents m c) main_arg4 (by decide) (by decide) (by decide) (by decide)),
      (h c main_arg5).trans (keep_all (launchContents m c) main_arg5 (by decide) (by decide) (by decide) (by decide)),
      (h c main_arg6).trans (keep_all (launchContents m c) main_arg6 (by decide) (by decide) (by decide) (by decide)),
      (h c main_arg7).trans (keep_all (launchContents m c) main_arg7 (by decide) (by decide) (by decide) (by decide)),
      (h c main_arg8).trans (keep_all (launchContents m c) main_arg8 (by decide) (by decide) (by decide) (by decide)),
      (h c main_arg9).trans (keep_all (launchContents m c) main_arg9 (by decide) (by decide) (by decide) (by decide)),
      (h c main_arg10).trans (keep_all (launchContents m c) main_arg10 (by decide) (by decide) (by decide) (by decide)),
      (h c main_arg11).trans (keep_all (launchContents m c) main_arg11 (by decide) (by decide) (by decide) (by decide)),
      (h c main_arg12).trans (keep_all (launchContents m c) main_arg12 (by decide) (by decide) (by decide) (by decide))⟩)
    (run_after m ρ)

end Cert.ReferenceIdeal.RefValue

end
-- ==== Proof.NetMath.lean ====
/-
  The network both programs compute, as plain functions of matrices over the extended reals.

  A jet is a 200 × 8 matrix J.  With W_emb (8 × 256), three message-passing weights W (512 × 256)
  and two readout weights (256 × 256), and their bias rows:
    h₀      = tanh(J·W_emb + b_emb)
    L(h)    = (h·hᵀ)·(1/16)
    E(L)    = exp(L − max of L's row),   the maximum taken from −∞
    A(h)    = E(L(h)) with each row divided by its sum                    (the soft adjacency)
    U(h)    = tanh((h·W[0:256] + (A(h)·h)·W[256:512]) + b)               (one round)
    D(h)    = tanh(h·W_r1 + b_r1)
    out     = Σ_n (D(h)·W_r2)[n, ·] + 200·b_r2 .
  The kernel computes exactly these, jet by jet; the reference computes them for all 128 jets at
  once, multiplying the concatenation [h, A·h] by the whole W and adding b_r2 inside the sum over
  n.  The two differences are the two laws at the end of this file: a sum over 512 = 256 + 256
  indices splits in two, and Σ_{n<200} (y_n + c) = Σ_n y_n + 200·c on the extended reals, for
  every c (infinite ones included).
-/
import Idealize.ShloMosaic.PureOps.Ideal
import Mathlib.Data.EReal.Operations
import Mathlib.Algebra.BigOperators.Fin
import Idealize.ShloMosaic.Lib.ValueIdx

noncomputable section

namespace Cert.Net

open Idealize.ShloMosaic

/-- The three float literals of the two programs, as the extended reals they denote. -/
def sixteenth : EReal := Ideal.ofBits .f32 0x3D800000#32
def negInf : EReal := Ideal.ofBits .f32 0xFF800000#32
def twoHundred : EReal := Ideal.ofBits .f32 0x43480000#32

theorem negInf_eq : negInf = ⊥ := by
  simp [negInf, Ideal.ofBits, Ideal.ieee]

theorem twoHundred_real : twoHundred = ((200 : ℝ) : EReal) := by
  simp [twoHundred, Ideal.ofBits, Ideal.ieee, -EReal.coe_mul]; norm_num

theorem twoHundred_eq : twoHundred = ((200 : ℕ) : EReal) := by
  rw [twoHundred_real]
  first
    | norm_cast
    | exact (EReal.coe_natCast 200)
    | simp
    | norm_num

theorem ofBits_zero : Ideal.ofBits .f32 0x00000000#32 = 0 := by
  simp [Ideal.ofBits, Ideal.ieee]

/-- h₀ = tanh(J·W + b). -/
def embedM (J : Fin 200 → Fin 8 → EReal) (W : Fin 8 → Fin 256 → EReal) (b : Fin 256 → EReal) :
    Fin 200 → Fin 256 → EReal :=
  fun n h => Ideal.tanh ((∑ f : Fin 8, J n f * W f h) + b h)

/-- L(h) = (h·hᵀ)·(1/16). -/
def logitsM (H : Fin 200 → Fin 256 → EReal) : Fin 200 → Fin 200 → EReal :=
  fun n m => (∑ d : Fin 256, H n d * H m d) * sixteenth

/-- The maximum of a row, taken from −∞. -/
def rowMax (L : Fin 200 → Fin 200 → EReal) (n : Fin 200) : EReal :=
  (Finset.univ : Finset (Fin 200)).fold max negInf (L n)

/-- E(L) = exp(L − its row's maximum). -/
def expShiftM (L : Fin 200 → Fin 200 → EReal) : Fin 200 → Fin 200 → EReal :=
  fun n m => Ideal.exp (L n m - rowMax L n)

/-- Each row divided by its sum. -/
def normRowsM (E : Fin 200 → Fin 200 → EReal) : Fin 200 → Fin 200 → EReal :=
  fun n m => Ideal.div (E n m) (∑ k : Fin 200, E n k)

/-- A(h): the row-wise softmax of L(h). -/
def adjacencyM (H : Fin 200 → Fin 256 → EReal) : Fin 200 → Fin 200 → EReal :=
  normRowsM (expShiftM (logitsM H))

/-- The message A(h)·h. -/
def messageM (H : Fin 200 → Fin 256 → EReal) : Fin 200 → Fin 256 → EReal :=
  fun n d => ∑ m : Fin 200, adjacencyM H n m * H m d

/-- U(h) = tanh((h·W_top + (A(h)·h)·W_bot) + b), W_top and W_bot the two halves of W's rows. -/
def updateM (H : Fin 200 → Fin 256 → EReal) (W : Fin 512 → Fin 256 → EReal) (b : Fin 256 → EReal) :
    Fin 200 → Fin 256 → EReal :=
  fun n h => Ideal.tanh (((∑ d : Fin 256, H n d * W (Fin.castAdd 256 d) h)
    + (∑ d : Fin 256, messageM H n d * W (Fin.natAdd 256 d) h)) + b h)

/-- D(h) = tanh(h·W + b). -/
def denseM (H : Fin 200 → Fin 256 → EReal) (W : Fin 256 → Fin 256 → EReal) (b : Fin 256 → EReal) :
    Fin 200 → Fin 256 → EReal :=
  fun n h => Ideal.tanh ((∑ d : Fin 256, H n d * W d h) + b h)

/-- out = Σ_n (D(h)·W₂)[n, ·] + 200·b₂. -/
def readoutM (H : Fin 200 → Fin 256 → EReal) (W1 : Fin 256 → Fin 256 → EReal) (b1 : Fin 256 → EReal)
    (W2 : Fin 256 → Fin 256 → EReal) (b2 : Fin 256 → EReal) : Fin 256 → EReal :=
  fun h => (∑ n : Fin 200, ∑ d : Fin 256, denseM H W1 b1 n d * W2 d h) + twoHundred * b2 h

/-- The hidden state entering the third round, from the jet and the first two rounds' weights. -/
def hidden2M (J : Fin 200 → Fin 8 → EReal) (We : Fin 8 → Fin 256 → EReal) (be : Fin 256 → EReal)
    (W0 : Fin 512 → Fin 256 → EReal) (b0 : Fin 256 → EReal) (W1 : Fin 512 → Fin 256 → EReal) (b1 : Fin 256 → EReal) :
    Fin 200 → Fin 256 → EReal :=
  updateM (updateM (embedM J We be) W0 b0) W1 b1

/-! ## The two laws -/

/-- A sum over 512 = 256 + 256 indices is the sum over the first half plus the sum over the second. -/
theorem sum_halves (f : Fin 512 → EReal) :
    ∑ k : Fin 512, f k = (∑ d : Fin 256, f (Fin.castAdd 256 d)) + ∑ d : Fin 256, f (Fin.natAdd 256 d) :=
  Fin.sum_univ_add (a := 256) (b := 256) f

/-- Adding one value c to each of 200 terms adds 200·c to their sum — on the extended reals, for every c:
    sums of the extended reals commute and associate, and 200 copies of c, infinite or not, add to 200·c. -/
theorem sum_add_const (y : Fin 200 → EReal) (c : EReal) :
    ∑ n : Fin 200, (y n + c) = (∑ n : Fin 200, y n) + twoHundred * c := by
  rw [Finset.sum_add_distrib, Finset.sum_const, Finset.card_univ, Fintype.card_fin, EReal.nsmul_eq_mul, twoHundred_eq]

/-- The maximum with −∞ is the other argument. -/
theorem max_negInf_left (x : EReal) : max negInf x = x := by
  rw [negInf_eq]; exact max_bot_left x

/-- Zero plus x. -/
theorem zero_add_ofBits (x : EReal) : Ideal.ofBits .f32 0x00000000#32 + x = x := by
  rw [ofBits_zero, zero_add]

/-! ## Arrays read as matrices -/

open Idealize.ShloMosaic.ValueIdx

/-- A rank-2 array as a matrix. -/
def mat {a b : Nat} (X : FVec Ideal ⟨2, ![a, b]⟩ .f32) : Fin a → Fin b → EReal := fun i j => X (ix2 i j)

/-- One batch entry of a rank-3 array as a matrix. -/
def slab {p a b : Nat} (X : FVec Ideal ⟨3, ![p, a, b]⟩ .f32) (β : Fin p) : Fin a → Fin b → EReal := fun i j => X (ix3 β i j)

/-- A rank-1 array as a vector. -/
def vec {a : Nat} (x : FVec Ideal ⟨1, ![a]⟩ .f32) : Fin a → EReal := fun i => x (ix1 i)

/-- The one row of a 1 × a array as a vector. -/
def rowOf {a : Nat} (x : FVec Ideal ⟨2, ![1, a]⟩ .f32) : Fin a → EReal := fun i => x (ix2 0 i)

theorem mat_apply {a b : Nat} (X : FVec Ideal ⟨2, ![a, b]⟩ .f32) (i : Fin a) (j : Fin b) : mat X i j = X (ix2 i j) := rfl
theorem slab_apply {p a b : Nat} (X : FVec Ideal ⟨3, ![p, a, b]⟩ .f32) (β : Fin p) (i : Fin a) (j : Fin b) :
    slab X β i j = X (ix3 β i j) := rfl
theorem vec_apply {a : Nat} (x : FVec Ideal ⟨1, ![a]⟩ .f32) (i : Fin a) : vec x i = x (ix1 i) := rfl
theorem rowOf_apply {a : Nat} (x : FVec Ideal ⟨2, ![1, a]⟩ .f32) (i : Fin a) : rowOf x i = x (ix2 0 i) := rfl

end Cert.Net

end
-- ==== Proof.JetApply.lean ====
/-
  One jet's layers, read at the extended reals index by index: each vector operation of the kernel body
  is the matrix function of the same name in NetMath.  A tpu.matmul into a zero accumulator is the plain
  sum of products over the contracted axis; a lane reduction is the sum (or the maximum from −∞) over the
  reduced axis; a row or column broadcast repeats the value; the two slices of a 512 × 256 weight are its
  upper and lower 256 rows.
-/
import proofs.«163898_g85813446574462_cont_9to1c4b_288_12_alg».proof.Proof.JetSpec
import proofs.«163898_g85813446574462_cont_9to1c4b_288_12_alg».proof.Proof.NetMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Jet

open Idealize.ShloMosaic Idealize.SL.Sem Idealize.ShloMosaic.ValueIdx Cert.KernelIdeal Cert.KernelIdeal.Gen Cert.Net

/-! ## The pointwise functions at an index -/

private theorem tanh_apply {s : Shape} (x : FVec Ideal s .f32) (i : s.Idx) : tanh x i = Ideal.tanh (x i) := rfl

private theorem exp_apply {s : Shape} (x : FVec Ideal s .f32) (i : s.Idx) : exp x i = Ideal.exp (x i) := rfl

/-! ## Column forms of a cast and of a broadcast -/

/-- A vector of length a cast to an a × 1 column reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three lane reductions -/

/-- The maximum of row n of a 200 × 200 array, taken from −∞. -/
private theorem rowMax_apply (L : FVec Ideal S200x200 .f32) (n : Fin 200) :
    multiReduction .maximumf [1] S200 L 0xFF800000#32 reduces_S200x200_S200 (.inl rfl) rfl (ix1 n) = rowMax (mat L) n := by
  refine (Ideal.multiReduction_maximumf_single L 0xFF800000#32 reduces_S200x200_S200 (.inl rfl) rfl (ix1 n)).trans ?_
  unfold rowMax
  have e : (L ∘ reduces_S200x200_S200.lift (ix1 n) : Fin 200 → EReal) = mat L n :=
    funext fun k => congrArg L (funext fun a => Fin.ext (by
      match a with
      | ⟨0, _⟩ => rfl
      | ⟨1, _⟩ => rfl))
  exact congrArg (fun f : Fin 200 → EReal => (Finset.univ : Finset (Fin 200)).fold max negInf f) e

/-- The sum of row n of a 200 × 200 array. -/
private theorem rowSum_apply (E : FVec Ideal S200x200 .f32) (n : Fin 200) :
    multiReduction .add [1] S200 E 0x00000000#32 reduces_S200x200_S200 (.inl rfl) rfl (ix1 n) = ∑ k : Fin 200, E (ix2 n k) := by
  refine (Ideal.multiReduction_add_single E 0x00000000#32 reduces_S200x200_S200 (.inl rfl) rfl (ix1 n)).trans ?_
  show ∑ k : Fin 200, E (reduces_S200x200_S200.lift (ix1 n) k) = _
  exact Finset.sum_congr rfl fun k _ => congrArg E (funext fun a => Fin.ext (by
    match a with
    | ⟨0, _⟩ => rfl
    | ⟨1, _⟩ => rfl))

/-- The sum of column h of a 200 × 256 array. -/
private theorem colSum_apply (X : FVec Ideal S200x256 .f32) (h : Fin 256) :
    multiReduction .add [0] S256 X 0x00000000#32 reduces_S200x256_S256 (.inl rfl) rfl (ix1 h) = ∑ n : Fin 200, X (ix2 n h) := by
  refine (Ideal.multiReduction_add_single X 0x00000000#32 reduces_S200x256_S256 (.inl rfl) rfl (ix1 h)).trans ?_
  show ∑ n : Fin 200, X (reduces_S200x256_S256.lift (ix1 h) n) = _
  exact Finset.sum_congr rfl fun n _ => congrArg X (funext fun a => Fin.ext (by
    match a with
    | ⟨0, _⟩ => rfl
    | ⟨1, _⟩ => rfl))

/-! ## The four products -/

/-! ### A 200 × 8 matrix times an 8 × 256 one -/

private theorem lhs_emb_0 (i : S200x256.Idx) (q : dot_S200x8_S8x256_S200x256_1_0_0_1_n_n.contr.Idx) :
    (dot_S200x8_S8x256_S200x256_1_0_0_1_n_n.lhsIdx i q 0).val = (i 0).val := by
  unfold DotDims.lhsIdx
  rw [dif_neg (show ¬(0 : Fin S200x8.rank) ∈ dot_S200x8_S8x256_S200x256_1_0_0_1_n_n.lhsBatch by decide),
    dif_pos (show (0 : Fin S200x8.rank) ∈ dot_S200x8_S8x256_S200x256_1_0_0_1_n_n.lhsNonContracting by decide)]
  rfl
private theorem lhs_emb_1 (i : S200x256.Idx) (q : dot_S200x8_S8x256_S200x256_1_0_0_1_n_n.contr.Idx) :
    (dot_S200x8_S8x256_S200x256_1_0_0_1_n_n.lhsIdx i q 1).val = (q ⟨0, by decide⟩).val :=
  dot_S200x8_S8x256_S200x256_1_0_0_1_n_n.lhsIdx_val_of_single rfl i q
private theorem rhs_emb_0 (i : S200x256.Idx) (q : dot_S200x8_S8x256_S200x256_1_0_0_1_n_n.contr.Idx) :
    (dot_S200x8_S8x256_S200x256_1_0_0_1_n_n.rhsIdx i q 0).val = (q ⟨0, by decide⟩).val :=
  dot_S200x8_S8x256_S200x256_1_0_0_1_n_n.rhsIdx_val_of_single rfl i q
private theorem rhs_emb_1 (i : S200x256.Idx) (q : dot_S200x8_S8x256_S200x256_1_0_0_1_n_n.contr.Idx) :
    (dot_S200x8_S8x256_S200x256_1_0_0_1_n_n.rhsIdx i q 1).val = (i 1).val := by
  unfold DotDims.rhsIdx
  rw [dif_neg (show ¬(1 : Fin S8x256.rank) ∈ dot_S200x8_S8x256_S200x256_1_0_0_1_n_n.rhsBatch by decide),
    dif_pos (show (1 : Fin S8x256.rank) ∈ dot_S200x8_S8x256_S200x256_1_0_0_1_n_n.rhsNonContracting by decide)]
  rfl

/-- Into a zero accumulator the product at (i, j) is the sum over the contracted axis. -/
private theorem matmul_emb (X : FVec Ideal S200x8 .f32) (Y : FVec Ideal S8x256 .f32) (i : Fin 200) (j : Fin 256) :
    matmul dot_S200x8_S8x256_S200x256_1_0_0_1_n_n none X Y (constant (F := Ideal) S200x256 .f32 0x00000000#32) (ix2 i j)
      = ∑ k : Fin 8, X (ix2 i k) * Y (ix2 k j) := by
  simp only [matmul]
  rw [Ideal.matmul_constant_zero_apply, ← Equiv.sum_comp (ValueIdx.contrEquiv1 dot_S200x8_S8x256_S200x256_1_0_0_1_n_n 8 rfl rfl).symm]
  refine Finset.sum_congr rfl fun k _ => ?_
  have hk := ValueIdx.contrEquiv1_symm_val dot_S200x8_S8x256_S200x256_1_0_0_1_n_n 8 rfl rfl k
  have el : dot_S200x8_S8x256_S200x256_1_0_0_1_n_n.lhsIdx (ix2 i j) ((ValueIdx.contrEquiv1 dot_S200x8_S8x256_S200x256_1_0_0_1_n_n 8 rfl rfl).symm k) = ix2 i k :=
    funext fun a => Fin.ext (by
      match a with
      | ⟨0, _⟩ => exact lhs_emb_0 _ _
      | ⟨1, _⟩ => exact (lhs_emb_1 _ _).trans hk)
  have er : dot_S200x8_S8x256_S200x256_1_0_0_1_n_n.rhsIdx (ix2 i j) ((ValueIdx.contrEquiv1 dot_S200x8_S8x256_S200x256_1_0_0_1_n_n 8 rfl rfl).symm k) = ix2 k j :=
    funext fun a => Fin.ext (by
      match a with
      | ⟨0, _⟩ => exact (rhs_emb_0 _ _).trans hk
      | ⟨1, _⟩ => exact rhs_emb_1 _ _)
  rw [el, er]

/-! ### A 200 × 256 matrix times the transpose of another: both operands are contracted on their second axis -/

private theorem lhs_gram_0 (i : S200x200.Idx) (q : dot_S200x256_S200x256_S200x200_1_1_0_0_n_n.contr.Idx) :
    (dot_S200x256_S200x256_S200x200_1_1_0_0_n_n.lhsIdx i q 0).val = (i 0).val := by
  unfold DotDims.lhsIdx
  rw [dif_neg (show ¬(0 : Fin S200x256.rank) ∈ dot_S200x256_S200x256_S200x200_1_1_0_0_n_n.lhsBatch by decide),
    dif_pos (show (0 : Fin S200x256.rank) ∈ dot_S200x256_S200x256_S200x200_1_1_0_0_n_n.lhsNonContracting by decide)]
  rfl
private theorem lhs_gram_1 (i : S200x200.Idx) (q : dot_S200x256_S200x256_S200x200_1_1_0_0_n_n.contr.Idx) :
    (dot_S200x256_S200x256_S200x200_1_1_0_0_n_n.lhsIdx i q 1).val = (q ⟨0, by decide⟩).val :=
  dot_S200x256_S200x256_S200x200_1_1_0_0_n_n.lhsIdx_val_of_single rfl i q
private theorem rhs_gram_0 (i : S200x200.Idx) (q : dot_S200x256_S200x256_S200x200_1_1_0_0_n_n.contr.Idx) :
    (dot_S200x256_S200x256_S200x200_1_1_0_0_n_n.rhsIdx i q 0).val = (i 1).val := by
  unfold DotDims.rhsIdx
  rw [dif_neg (show ¬(0 : Fin S200x256.rank) ∈ dot_S200x256_S200x256_S200x200_1_1_0_0_n_n.rhsBatch by decide),
    dif_pos (show (0 : Fin S200x256.rank) ∈ dot_S200x256_S200x256_S200x200_1_1_0_0_n_n.rhsNonContracting by decide)]
  rfl
private theorem rhs_gram_1 (i : S200x200.Idx) (q : dot_S200x256_S200x256_S200x200_1_1_0_0_n_n.contr.Idx) :
    (dot_S200x256_S200x256_S200x200_1_1_0_0_n_n.rhsIdx i q 1).val = (q ⟨0, by decide⟩).val :=
  dot_S200x256_S200x256_S200x200_1_1_0_0_n_n.rhsIdx_val_of_single rfl i q

/-- Into a zero accumulator the product at (i, j) is the sum over the contracted axis. -/
private theorem matmul_gram (X : FVec Ideal S200x256 .f32) (Y : FVec Ideal S200x256 .f32) (i : Fin 200) (j : Fin 200) :
    matmul dot_S200x256_S200x256_S200x200_1_1_0_0_n_n none X Y (constant (F := Ideal) S200x200 .f32 0x00000000#32) (ix2 i j)
      = ∑ k : Fin 256, X (ix2 i k) * Y (ix2 j k) := by
  simp only [matmul]
  rw [Ideal.matmul_constant_zero_apply, ← Equiv.sum_comp (ValueIdx.contrEquiv1 dot_S200x256_S200x256_S200x200_1_1_0_0_n_n 256 rfl rfl).symm]
  refine Finset.sum_congr rfl fun k _ => ?_
  have hk := ValueIdx.contrEquiv1_symm_val dot_S200x256_S200x256_S200x200_1_1_0_0_n_n 256 rfl rfl k
  have el : dot_S200x256_S200x256_S200x200_1_1_0_0_n_n.lhsIdx (ix2 i j) ((ValueIdx.contrEquiv1 dot_S200x256_S200x256_S200x200_1_1_0_0_n_n 256 rfl rfl).symm k) = ix2 i k :=
    funext fun a => Fin.ext (by
      match a with
      | ⟨0, _⟩ => exact lhs_gram_0 _ _
      | ⟨1, _⟩ => exact (lhs_gram_1 _ _).trans hk)
  have er : dot_S200x256_S200x256_S200x200_1_1_0_0_n_n.rhsIdx (ix2 i j) ((ValueIdx.contrEquiv1 dot_S200x256_S200x256_S200x200_1_1_0_0_n_n 256 rfl rfl).symm k) = ix2 j k :=
    funext fun a => Fin.ext (by
      match a with
      | ⟨0, _⟩ => exact rhs_gram_0 _ _
      | ⟨1, _⟩ => exact (rhs_gram_1 _ _).trans hk)
  rw [el, er]

/-! ### A 200 × 200 matrix times a 200 × 256 one -/

private theorem lhs_msg_0 (i : S200x256.Idx) (q : dot_S200x200_S200x256_S200x256_1_0_0_1_n_n.contr.Idx) :
    (dot_S200x200_S200x256_S200x256_1_0_0_1_n_n.lhsIdx i q 0).val = (i 0).val := by
  unfold DotDims.lhsIdx
  rw [dif_neg (show ¬(0 : Fin S200x200.rank) ∈ dot_S200x200_S200x256_S200x256_1_0_0_1_n_n.lhsBatch by decide),
    dif_pos (show (0 : Fin S200x200.rank) ∈ dot_S200x200_S200x256_S200x256_1_0_0_1_n_n.lhsNonContracting by decide)]
  rfl
private theorem lhs_msg_1 (i : S200x256.Idx) (q : dot_S200x200_S200x256_S200x256_1_0_0_1_n_n.contr.Idx) :
    (dot_S200x200_S200x256_S200x256_1_0_0_1_n_n.lhsIdx i q 1).val = (q ⟨0, by decide⟩).val :=
  dot_S200x200_S200x256_S200x256_1_0_0_1_n_n.lhsIdx_val_of_single rfl i q
private theorem rhs_msg_0 (i : S200x256.Idx) (q : dot_S200x200_S200x256_S200x256_1_0_0_1_n_n.contr.Idx) :
    (dot_S200x200_S200x256_S200x256_1_0_0_1_n_n.rhsIdx i q 0).val = (q ⟨0, by decide⟩).val :=
  dot_S200x200_S200x256_S200x256_1_0_0_1_n_n.rhsIdx_val_of_single rfl i q
private theorem rhs_msg_1 (i : S200x256.Idx) (q : dot_S200x200_S200x256_S200x256_1_0_0_1_n_n.contr.Idx) :
    (dot_S200x200_S200x256_S200x256_1_0_0_1_n_n.rhsIdx i q 1).val = (i 1).val := by
  unfold DotDims.rhsIdx
  rw [dif_neg (show ¬(1 : Fin S200x256.rank) ∈ dot_S200x200_S200x256_S200x256_1_0_0_1_n_n.rhsBatch by decide),
    dif_pos (show (1 : Fin S200x256.rank) ∈ dot_S200x200_S200x256_S200x256_1_0_0_1_n_n.rhsNonContracting by decide)]
  rfl

/-- Into a zero accumulator the product at (i, j) is the sum over the contracted axis. -/
private theorem matmul_msg (X : FVec Ideal S200x200 .f32) (Y : FVec Ideal S200x256 .f32) (i : Fin 200) (j : Fin 256) :
    matmul dot_S200x200_S200x256_S200x256_1_0_0_1_n_n none X Y (constant (F := Ideal) S200x256 .f32 0x00000000#32) (ix2 i j)
      = ∑ k : Fin 200, X (ix2 i k) * Y (ix2 k j) := by
  simp only [matmul]
  rw [Ideal.matmul_constant_zero_apply, ← Equiv.sum_comp (ValueIdx.contrEquiv1 dot_S200x200_S200x256_S200x256_1_0_0_1_n_n 200 rfl rfl).symm]
  refine Finset.sum_congr rfl fun k _ => ?_
  have hk := ValueIdx.contrEquiv1_symm_val dot_S200x200_S200x256_S200x256_1_0_0_1_n_n 200 rfl rfl k
  have el : dot_S200x200_S200x256_S200x256_1_0_0_1_n_n.lhsIdx (ix2 i j) ((ValueIdx.contrEquiv1 dot_S200x200_S200x256_S200x256_1_0_0_1_n_n 200 rfl rfl).symm k) = ix2 i k :=
    funext fun a => Fin.ext (by
      match a with
      | ⟨0, _⟩ => exact lhs_msg_0 _ _
      | ⟨1, _⟩ => exact (lhs_msg_1 _ _).trans hk)
  have er : dot_S200x200_S200x256_S200x256_1_0_0_1_n_n.rhsIdx (ix2 i j) ((ValueIdx.contrEquiv1 dot_S200x200_S200x256_S200x256_1_0_0_1_n_n 200 rfl rfl).symm k) = ix2 k j :=
    funext fun a => Fin.ext (by
      match a with
      | ⟨0, _⟩ => exact (rhs_msg_0 _ _).trans hk
      | ⟨1, _⟩ => exact rhs_msg_1 _ _)
  rw [el, er]

/-! ### A 200 × 256 matrix times a 256 × 256 one -/

private theorem lhs_lin_0 (i : S200x256.Idx) (q : dot_S200x256_S256x256_S200x256_1_0_0_1_n_n.contr.Idx) :
    (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch by decide),
    dif_pos (show (0 : Fin S200x256.rank) ∈ dot_S200x256_S256x256_S200x256_1_0_0_1_n_n.lhsNonContracting by decide)]
  rfl
private theorem lhs_lin_1 (i : S200x256.Idx) (q : dot_S200x256_S256x256_S200x256_1_0_0_1_n_n.contr.Idx) :
    (dot_S200x256_S256x256_S200x256_1_0_0_1_n_n.lhsIdx i q 1).val = (q ⟨0, by decide⟩).val :=
  dot_S200x256_S256x256_S200x256_1_0_0_1_n_n.lhsIdx_val_of_single rfl i q
private theorem rhs_lin_0 (i : S200x256.Idx) (q : dot_S200x256_S256x256_S200x256_1_0_0_1_n_n.contr.Idx) :
    (dot_S200x256_S256x256_S200x256_1_0_0_1_n_n.rhsIdx i q 0).val = (q ⟨0, by decide⟩).val :=
  dot_S200x256_S256x256_S200x256_1_0_0_1_n_n.rhsIdx_val_of_single rfl i q
private theorem rhs_lin_1 (i : S200x256.Idx) (q : dot_S200x256_S256x256_S200x256_1_0_0_1_n_n.contr.Idx) :
    (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch by decide),
    dif_pos (show (1 : Fin S256x256.rank) ∈ dot_S200x256_S256x256_S200x256_1_0_0_1_n_n.rhsNonContracting by decide)]
  rfl

/-- Into a zero accumulator the product at (i, j) is the sum over the contracted axis. -/
private theorem matmul_lin (X : FVec Ideal S200x256 .f32) (Y : FVec Ideal S256x256 .f32) (i : Fin 200) (j : Fin 256) :
    matmul dot_S200x256_S256x256_S200x256_1_0_0_1_n_n none X Y (constant (F := Ideal) S200x256 .f32 0x00000000#32) (ix2 i j)
      = ∑ k : Fin 256, X (ix2 i k) * Y (ix2 k j) := by
  simp only [matmul]
  rw [Ideal.matmul_constant_zero_apply, ← Equiv.sum_comp (ValueIdx.contrEquiv1 dot_S200x256_S256x256_S200x256_1_0_0_1_n_n 256 rfl rfl).symm]
  refine Finset.sum_congr rfl fun k _ => ?_
  have hk := ValueIdx.contrEquiv1_symm_val dot_S200x256_S256x256_S200x256_1_0_0_1_n_n 256 rfl rfl k
  have el : dot_S200x256_S256x256_S200x256_1_0_0_1_n_n.lhsIdx (ix2 i j) ((ValueIdx.contrEquiv1 dot_S200x256_S256x256_S200x256_1_0_0_1_n_n 256 rfl rfl).symm k) = ix2 i k :=
    funext fun a => Fin.ext (by
      match a with
      | ⟨0, _⟩ => exact lhs_lin_0 _ _
      | ⟨1, _⟩ => exact (lhs_lin_1 _ _).trans hk)
  have er : dot_S200x256_S256x256_S200x256_1_0_0_1_n_n.rhsIdx (ix2 i j) ((ValueIdx.contrEquiv1 dot_S200x256_S256x256_S200x256_1_0_0_1_n_n 256 rfl rfl).symm k) = ix2 k j :=
    funext fun a => Fin.ext (by
      match a with
      | ⟨0, _⟩ => exact (rhs_lin_0 _ _).trans hk
      | ⟨1, _⟩ => exact rhs_lin_1 _ _)
  rw [el, er]

/-! ## The layers -/

/-- The rank-preserving cast of a bias row changes nothing. -/
theorem biasRow_eq (b : Vec Ideal S1x256 .f32) : rowOf (biasRow (F := Ideal) b) = rowOf b := by
  unfold biasRow
  rw [shapeCast_self]

/-- The jet's row of the block, its unit axis dropped, is the same matrix. -/
theorem jetRows_eq (J : Vec Ideal S1x200x8 .f32) :
    mat (shapeCast S200x8 J shapeCasts_S1x200x8_S200x8 : FVec Ideal S200x8 .f32) = slab J 0 := by
  funext n f
  exact shapeCast_1ab_ab_apply J shapeCasts_S1x200x8_S200x8 n f

theorem embed_eq (J : FVec Ideal S200x8 .f32) (W : Vec Ideal S8x256 .f32) (b : FVec Ideal S1x256 .f32) :
    mat (embed (F := Ideal) J W b) = embedM (mat J) (mat W) (rowOf b) := by
  funext n h
  unfold embed embedM
  rw [mat_apply, tanh_apply, addf_apply, matmul_emb, broadcastTo_1b_ab_apply]
  rfl

theorem logits_eq (H : FVec Ideal S200x256 .f32) : mat (logits (F := Ideal) H) = logitsM (mat H) := by
  funext n m
  unfold logits logitsM
  rw [mat_apply, mulf_apply, broadcast_apply, matmul_gram]
  rfl

theorem expShift_eq (L : FVec Ideal S200x200 .f32) : mat (expShift (F := Ideal) L) = expShiftM (mat L) := by
  funext n m
  unfold expShift expShiftM
  rw [mat_apply, exp_apply, subf_apply, broadcastTo_a1_ab_apply, shapeCast_a_a1_apply, rowMax_apply]
  rfl

theorem normRows_eq (E : FVec Ideal S200x200 .f32) : mat (normRows (F := Ideal) E) = normRowsM (mat E) := by
  funext n m
  unfold normRows normRowsM
  rw [mat_apply, divf_apply, broadcastTo_a1_ab_apply, shapeCast_a_a1_apply, rowSum_apply]
  rfl

theorem adjacency_eq (H : FVec Ideal S200x256 .f32) : mat (adjacency (F := Ideal) H) = adjacencyM (mat H) := by
  unfold adjacency adjacencyM
  rw [normRows_eq, expShift_eq, logits_eq]

theorem update_eq (H : FVec Ideal S200x256 .f32) (W : Vec Ideal S512x256 .f32) (b : FVec Ideal S1x256 .f32) :
    mat (update (F := Ideal) H W b) = updateM (mat H) (mat W) (rowOf b) := by
  funext n h
  unfold update updateM
  rw [mat_apply, tanh_apply, addf_apply, addf_apply, matmul_lin, matmul_lin, broadcastTo_1b_ab_apply]
  -- the upper and the lower 256 rows of the weight
  have e1 : ∀ d : Fin 256, extractStridedSlice S256x256 ![0, 0] W slices_S512x256_o0_0_S256x256 (ix2 d h)
      = W (ix2 (Fin.castAdd 256 d) h) :=
    fun d => slice2_axis0_apply 0 W slices_S512x256_o0_0_S256x256 d h (Fin.castAdd 256 d) (Nat.zero_add _).symm
  have e2 : ∀ d : Fin 256, extractStridedSlice S256x256 ![256, 0] W slices_S512x256_o256_0_S256x256 (ix2 d h)
      = W (ix2 (Fin.natAdd 256 d) h) :=
    fun d => slice2_axis0_apply 256 W slices_S512x256_o256_0_S256x256 d h (Fin.natAdd 256 d) rfl
  -- the message A(h)·h
  have e3 : ∀ d : Fin 256,
      matmul dot_S200x200_S200x256_S200x256_1_0_0_1_n_n none (adjacency (F := Ideal) H) H
        (constant (F := Ideal) S200x256 .f32 0x00000000#32) (ix2 n d) = messageM (mat H) n d := fun d => by
    rw [matmul_msg]
    unfold messageM
    rw [← adjacency_eq]
    rfl
  simp only [e1, e2, e3]
  rfl

theorem dense_eq (H : FVec Ideal S200x256 .f32) (W : Vec Ideal S256x256 .f32) (b : FVec Ideal S1x256 .f32) :
    mat (dense (F := Ideal) H W b) = denseM (mat H) (mat W) (rowOf b) := by
  funext n h
  unfold dense denseM
  rw [mat_apply, tanh_apply, addf_apply, matmul_lin, broadcastTo_1b_ab_apply]
  rfl

theorem readout_eq (H : FVec Ideal S200x256 .f32) (W1 : Vec Ideal S256x256 .f32) (b1 : FVec Ideal S1x256 .f32)
    (W2 : Vec Ideal S256x256 .f32) (b2 : FVec Ideal S1x256 .f32) :
    rowOf (readout (F := Ideal) H W1 b1 W2 b2) = readoutM (mat H) (mat W1) (rowOf b1) (mat W2) (rowOf b2) := by
  funext h
  unfold readout readoutM
  rw [rowOf_apply, addf_apply, mulf_apply, broadcast_apply, shapeCast_a_1a_apply, colSum_apply, ← dense_eq]
  simp only [matmul_lin]
  rfl

/-! ## One jet, end to end -/

theorem hidden2_eq (J : Vec Ideal S1x200x8 .f32) (We : Vec Ideal S8x256 .f32) (be : Vec Ideal S1x256 .f32)
    (W0 : Vec Ideal S512x256 .f32) (b0 : Vec Ideal S1x256 .f32) (W1 : Vec Ideal S512x256 .f32) (b1 : Vec Ideal S1x256 .f32) :
    mat (hidden2 (F := Ideal) J We be W0 b0 W1 b1)
      = hidden2M (slab J 0) (mat We) (rowOf be) (mat W0) (rowOf b0) (mat W1) (rowOf b1) := by
  unfold hidden2 hidden2M
  rw [update_eq, update_eq, embed_eq, jetRows_eq, biasRow_eq, biasRow_eq, biasRow_eq]

/-- The adjacency the body stores for a jet, at (n, m). -/
theorem jetAdj_apply (J : Vec Ideal S1x200x8 .f32) (We : Vec Ideal S8x256 .f32) (be : Vec Ideal S1x256 .f32)
    (W0 : Vec Ideal S512x256 .f32) (b0 : Vec Ideal S1x256 .f32) (W1 : Vec Ideal S512x256 .f32) (b1 : Vec Ideal S1x256 .f32)
    (n m : Fin 200) :
    jetAdj (F := Ideal) J We be W0 b0 W1 b1 (ix3 0 n m)
      = adjacencyM (hidden2M (slab J 0) (mat We) (rowOf be) (mat W0) (rowOf b0) (mat W1) (rowOf b1)) n m := by
  unfold jetAdj
  rw [shapeCast_ab_1ab_apply, ← hidden2_eq, ← adjacency_eq]
  rfl

/-- The readout the body stores for a jet, at feature h. -/
theorem jetOut_apply (J : Vec Ideal S1x200x8 .f32) (We : Vec Ideal S8x256 .f32) (be : Vec Ideal S1x256 .f32)
    (W0 : Vec Ideal S512x256 .f32) (b0 : Vec Ideal S1x256 .f32) (W1 : Vec Ideal S512x256 .f32) (b1 : Vec Ideal S1x256 .f32)
    (W2 : Vec Ideal S512x256 .f32) (b2 : Vec Ideal S1x256 .f32)
    (Wr1 : Vec Ideal S256x256 .f32) (br1 : Vec Ideal S1x256 .f32) (Wr2 : Vec Ideal S256x256 .f32) (br2 : Vec Ideal S1x256 .f32)
    (h : Fin 256) :
    jetOut (F := Ideal) J We be W0 b0 W1 b1 W2 b2 Wr1 br1 Wr2 br2 (ix3 0 0 h)
      = readoutM (updateM (hidden2M (slab J 0) (mat We) (rowOf be) (mat W0) (rowOf b0) (mat W1) (rowOf b1)) (mat W2) (rowOf b2))
          (mat Wr1) (rowOf br1) (mat Wr2) (rowOf br2) h := by
  unfold jetOut
  rw [shapeCast_ab_1ab_apply, ← hidden2_eq, ← biasRow_eq b2, ← biasRow_eq br1, ← biasRow_eq br2, ← update_eq, ← readout_eq]
  rfl

end Cert.KernelIdeal.Jet

end
-- ==== Proof.RefApply.lean ====
/-
  The reference's batched layers, read at the extended reals one jet at a time: at batch entry β each
  layer is the matrix function of the same name in NetMath applied to the slab at β.  A batched
  dot_general is, per batch entry, the sum of products over the contracted axis; the broadcast chains
  repeat a bias along the batch and particle axes and a row value along the last axis; the extra
  maximum with −∞ changes nothing; the product of the concatenation [h, A·h] with the whole weight is
  the sum of the two half products (NetMath.sum_halves); and the bias added inside the sum over the 200
  particles comes out as 200·b (NetMath.sum_add_const).
-/
import proofs.«163898_g85813446574462_cont_9to1c4b_288_12_alg».proof.Proof.RefSpec
import proofs.«163898_g85813446574462_cont_9to1c4b_288_12_alg».proof.Proof.NetMath
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Batched

open Idealize.ShloMosaic Idealize.SL.Sem Idealize.ShloMosaic.ValueIdx Cert.ReferenceIdeal Cert.ReferenceIdeal.Gen Cert.Net

/-! ## The host operations read at an index -/

/-- A product of a stack of row blocks with one matrix, read at an index: the sum over the contracted coordinate. -/
private theorem dotRows_apply {P N K M : Nat}
    (w : DotDims.WF ⟨3, ![P, N, K]⟩ ⟨2, ![K, M]⟩ ⟨3, ![P, N, M]⟩ [2] [0] [0, 1] [1] [] [])
    (A : FVec Ideal ⟨3, ![P, N, K]⟩ .f32) (B : FVec Ideal ⟨2, ![K, M]⟩ .f32) (β : Fin P) (n : Fin N) (h : Fin M) :
    Host.dotGeneral (⟨[2], [0], [0, 1], [1], [], [], w⟩ : DotDims _ _ _) none A B (ix3 β n h)
      = ∑ c : Fin K, A (ix3 β n c) * B (ix2 c h) := by
  show FloatOps.dotGeneral _ none _ A B (ix3 β n h) = _
  rw [Ideal.dotGeneral_apply,
    ← Equiv.sum_comp (contrEquiv1 (⟨[2], [0], [0, 1], [1], [], [], w⟩ : DotDims _ _ _) K rfl rfl).symm]
  refine Finset.sum_congr rfl fun c _ => ?_
  have c3 := contrEquiv1_symm_val
    (⟨[2], [0], [0, 1], [1], [], [], w⟩ : DotDims ⟨3, ![P, N, K]⟩ ⟨2, ![K, M]⟩ ⟨3, ![P, N, M]⟩) K rfl rfl c
  have l3 : (⟨[2], [0], [0, 1], [1], [], [], w⟩ : DotDims ⟨3, ![P, N, K]⟩ ⟨2, ![K, M]⟩ ⟨3, ![P, N, M]⟩).lhsIdx (ix3 β n h)
      ((contrEquiv1 _ K rfl rfl).symm c) = ix3 β n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![P, N, K]⟩ ⟨2, ![K, M]⟩ ⟨3, ![P, N, M]⟩).rhsIdx (ix3 β n h)
      ((contrEquiv1 _ K rfl rfl).symm c) = ix2 c h := by
    funext ax; apply Fin.ext
    match ax with
    | ⟨0, _⟩ => simp [DotDims.rhsIdx]; exact c3
    | ⟨1, _⟩ => simp [DotDims.rhsIdx]; rfl
  rw [l3, r3]

private theorem dotE (J : FVec Ideal S128x200x8 .f32) (W : FVec Ideal S8x256 .f32) (β : Fin 128) (n : Fin 200) (h : Fin 256) :
    Host.dotGeneral dot_S128x200x8_S8x256_S128x200x256_2_0_01_1_n_n none J W (ix3 β n h)
      = ∑ c : Fin 8, J (ix3 β n c) * W (ix2 c h) :=
  dotRows_apply _ J W β n h

/-- Gram products of a stack: both operands contracted on their last axis, batched on the first. -/
private theorem dotGram_apply {P N K : Nat}
    (w : DotDims.WF ⟨3, ![P, N, K]⟩ ⟨3, ![P, N, K]⟩ ⟨3, ![P, N, N]⟩ [2] [2] [1] [1] [0] [0])
    (A : FVec Ideal ⟨3, ![P, N, K]⟩ .f32) (B : FVec Ideal ⟨3, ![P, N, K]⟩ .f32) (β : Fin P) (n m : Fin N) :
    Host.dotGeneral (⟨[2], [2], [1], [1], [0], [0], w⟩ : DotDims _ _ _) none A B (ix3 β n m)
      = ∑ c : Fin K, A (ix3 β n c) * B (ix3 β m c) := by
  show FloatOps.dotGeneral _ none _ A B (ix3 β n m) = _
  rw [Ideal.dotGeneral_apply,
    ← Equiv.sum_comp (contrEquiv1 (⟨[2], [2], [1], [1], [0], [0], w⟩ : DotDims _ _ _) K rfl rfl).symm]
  refine Finset.sum_congr rfl fun c _ => ?_
  have c3 := contrEquiv1_symm_val
    (⟨[2], [2], [1], [1], [0], [0], w⟩ : DotDims ⟨3, ![P, N, K]⟩ ⟨3, ![P, N, K]⟩ ⟨3, ![P, N, N]⟩) K rfl rfl c
  have l3 : (⟨[2], [2], [1], [1], [0], [0], w⟩ : DotDims ⟨3, ![P, N, K]⟩ ⟨3, ![P, N, K]⟩ ⟨3, ![P, N, N]⟩).lhsIdx (ix3 β n m)
      ((contrEquiv1 _ K rfl rfl).symm c) = ix3 β n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![P, N, K]⟩ ⟨3, ![P, N, K]⟩ ⟨3, ![P, N, N]⟩).rhsIdx (ix3 β n m)
      ((contrEquiv1 _ K rfl rfl).symm c) = ix3 β m c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- Products of two stacks, matrix by matrix. -/
private theorem dotStack_apply {P N K M : Nat}
    (w : DotDims.WF ⟨3, ![P, N, K]⟩ ⟨3, ![P, K, M]⟩ ⟨3, ![P, N, M]⟩ [2] [1] [1] [2] [0] [0])
    (A : FVec Ideal ⟨3, ![P, N, K]⟩ .f32) (B : FVec Ideal ⟨3, ![P, K, M]⟩ .f32) (β : Fin P) (n : Fin N) (h : Fin M) :
    Host.dotGeneral (⟨[2], [1], [1], [2], [0], [0], w⟩ : DotDims _ _ _) none A B (ix3 β n h)
      = ∑ c : Fin K, A (ix3 β n c) * B (ix3 β c h) := by
  show FloatOps.dotGeneral _ none _ A B (ix3 β n h) = _
  rw [Ideal.dotGeneral_apply,
    ← Equiv.sum_comp (contrEquiv1 (⟨[2], [1], [1], [2], [0], [0], w⟩ : DotDims _ _ _) K rfl rfl).symm]
  refine Finset.sum_congr rfl fun c _ => ?_
  have c3 := contrEquiv1_symm_val
    (⟨[2], [1], [1], [2], [0], [0], w⟩ : DotDims ⟨3, ![P, N, K]⟩ ⟨3, ![P, K, M]⟩ ⟨3, ![P, N, M]⟩) K rfl rfl c
  have l3 : (⟨[2], [1], [1], [2], [0], [0], w⟩ : DotDims ⟨3, ![P, N, K]⟩ ⟨3, ![P, K, M]⟩ ⟨3, ![P, N, M]⟩).lhsIdx (ix3 β n h)
      ((contrEquiv1 _ K rfl rfl).symm c) = ix3 β n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [1], [2], [0], [0], w⟩ : DotDims ⟨3, ![P, N, K]⟩ ⟨3, ![P, K, M]⟩ ⟨3, ![P, N, M]⟩).rhsIdx (ix3 β n h)
      ((contrEquiv1 _ K rfl rfl).symm c) = ix3 β c h := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

private theorem dotG (H : FVec Ideal S128x200x256 .f32) (β : Fin 128) (n m : Fin 200) :
    Host.dotGeneral dot_S128x200x256_S128x200x256_S128x200x200_2_2_1_1_0_0 none H H (ix3 β n m)
      = ∑ c : Fin 256, H (ix3 β n c) * H (ix3 β m c) :=
  dotGram_apply _ H H β n m

private theorem dotS (A : FVec Ideal S128x200x200 .f32) (H : FVec Ideal S128x200x256 .f32) (β : Fin 128) (n : Fin 200) (h : Fin 256) :
    Host.dotGeneral dot_S128x200x200_S128x200x256_S128x200x256_2_1_1_2_0_0 none A H (ix3 β n h)
      = ∑ c : Fin 200, A (ix3 β n c) * H (ix3 β c h) :=
  dotStack_apply _ A H β n h

/-- A bias along the feature axis. -/
private theorem biasB_apply (b : FVec Ideal S256 .f32) (β : Fin 128) (n : Fin 200) (h : Fin 256) :
    biasB (F := Ideal) b (ix3 β n h) = b (ix1 h) := by
  unfold biasB
  rw [broadcastInDim_apply _ _ _ (ix3 β n h) (ix3 (0 : Fin 1) (0 : Fin 1) h) (by
    intro a
    match a with
    | ⟨0, _⟩ => rfl
    | ⟨1, _⟩ => rfl
    | ⟨2, _⟩ => rfl)]
  rw [broadcastInDim_apply _ _ _ (ix3 (0 : Fin 1) (0 : Fin 1) h) (ix1 h) (by
    intro a
    match a with
    | ⟨0, _⟩ => rfl)]

/-- A per-row value along the last axis. -/
private theorem rowsB_apply (r : FVec Ideal S128x200 .f32) (β : Fin 128) (n m : Fin 200) :
    rowsB (F := Ideal) r (ix3 β n m) = r (ix2 β n) := by
  unfold rowsB
  rw [broadcastInDim_apply _ _ _ (ix3 β n m) (ix3 β n (0 : Fin 1)) (by
    intro a
    match a with
    | ⟨0, _⟩ => rfl
    | ⟨1, _⟩ => rfl
    | ⟨2, _⟩ => rfl)]
  rw [broadcastInDim_apply _ _ _ (ix3 β n (0 : Fin 1)) (ix2 β n) (by
    intro a
    match a with
    | ⟨0, _⟩ => rfl
    | ⟨1, _⟩ => rfl)]

/-- The reduced index (β, n) with coordinate k put back on the last axis is (β, n, k). -/
private theorem lift_last (h : S128x200x200.Reduces [2] S128x200) (β : Fin 128) (n : Fin 200) (k : Fin (S128x200x200.size 2)) :
    h.lift (ix2 β n) k = ix3 β n (⟨k.val, k.isLt⟩ : Fin 200) := by
  funext c; apply Fin.ext
  match c with
  | ⟨0, _⟩ => rfl
  | ⟨1, _⟩ => rfl
  | ⟨2, _⟩ => rfl

/-- The reduced index (β, h) with coordinate n put back on the middle axis is (β, n, h). -/
private theorem lift_mid (h' : S128x200x256.Reduces [1] S128x256) (β : Fin 128) (h : Fin 256) (k : Fin (S128x200x256.size 1)) :
    h'.lift (ix2 β h) k = ix3 β (⟨k.val, k.isLt⟩ : Fin 200) h := by
  funext c; apply Fin.ext
  match c with
  | ⟨0, _⟩ => rfl
  | ⟨1, _⟩ => rfl
  | ⟨2, _⟩ => rfl

/-- The host's row maximum from −∞ is the fold of max over the row. -/
private theorem reduceMax_apply (L : FVec Ideal S128x200x200 .f32) (β : Fin 128) (n : Fin 200) :
    Host.reduce FloatOps.maximumf L (constant (F := Ideal) S_ .f32 0xFF800000#32) reducesTo_S128x200x200_S128x200_d2 h_S_ (ix2 β n)
      = (Finset.univ : Finset (Fin 200)).fold max negInf (fun m => L (ix3 β n m)) := by
  have hR : S128x200x200.Reduces [2] S128x200 := by decide
  rw [Host.reduce_eq_fold_single FloatOps.maximumf L _ reducesTo_S128x200x200_S128x200_d2 hR h_S_]
  have hf : (L ∘ hR.lift (ix2 β n)) = fun k : Fin 200 => L (ix3 β n k) := funext fun k => congrArg L (lift_last hR β n k)
  exact congrArg (fun f => Finset.fold max negInf f (Finset.univ : Finset (Fin 200))) hf

/-- The host's row sum from zero is the sum over the row. -/
private theorem reduceAddLast_apply (E : FVec Ideal S128x200x200 .f32) (β : Fin 128) (n : Fin 200) :
    Host.reduceAdd (F := Ideal) E (constant (F := Ideal) S_ .f32 0x00000000#32) reducesTo_S128x200x200_S128x200_d2 h_S_ (ix2 β n)
      = ∑ k : Fin 200, E (ix3 β n k) := by
  have hR : S128x200x200.Reduces [2] S128x200 := by decide
  show Ideal.hostReduceAdd reducesTo_S128x200x200_S128x200_d2 E (Ideal.ofBits .f32 0x00000000#32) (ix2 β n) = _
  rw [Ideal.hostReduceAdd_single reducesTo_S128x200x200_S128x200_d2 hR, zero_add_ofBits]
  exact Finset.sum_congr rfl fun k _ => congrArg E (lift_last hR β n k)

/-- The host's sum over the particles from zero. -/
private theorem reduceAddMid_apply (X : FVec Ideal S128x200x256 .f32) (β : Fin 128) (h : Fin 256) :
    Host.reduceAdd (F := Ideal) X (constant (F := Ideal) S_ .f32 0x00000000#32) reducesTo_S128x200x256_S128x256_d1 h_S_ (ix2 β h)
      = ∑ n : Fin 200, X (ix3 β n h) := by
  have hR : S128x200x256.Reduces [1] S128x256 := by decide
  show Ideal.hostReduceAdd reducesTo_S128x200x256_S128x256_d1 X (Ideal.ofBits .f32 0x00000000#32) (ix2 β h) = _
  rw [Ideal.hostReduceAdd_single reducesTo_S128x200x256_S128x256_d1 hR, zero_add_ofBits]
  exact Finset.sum_congr rfl fun k _ => congrArg X (lift_mid hR β h k)

/-- The concatenation [X, Y] along the feature axis: a column below 256 is X's. -/
private theorem concat_left (X Y : FVec Ideal S128x200x256 .f32) (β : Fin 128) (n : Fin 200) (d : Fin 256) :
    concatenate S128x200x512 2 [⟨S128x200x256, X⟩, ⟨S128x200x256, Y⟩] concatenates_S128x200x256_S128x200x256_S128x200x512_d2
        (ix3 β n (Fin.castAdd 256 d)) = X (ix3 β n d) := by
  refine concatenate_pair_apply_left 2 X Y _ (ix3 β n (Fin.castAdd 256 d)) rfl (ix3 β n d) ?_
  intro b
  match b with
  | ⟨0, _⟩ => rfl
  | ⟨1, _⟩ => rfl
  | ⟨2, _⟩ => rfl

/-- … and column 256 + d is Y's column d. -/
private theorem concat_right (X Y : FVec Ideal S128x200x256 .f32) (β : Fin 128) (n : Fin 200) (d : Fin 256) :
    concatenate S128x200x512 2 [⟨S128x200x256, X⟩, ⟨S128x200x256, Y⟩] concatenates_S128x200x256_S128x200x256_S128x200x512_d2
        (ix3 β n (Fin.natAdd 256 d)) = Y (ix3 β n d) := by
  refine concatenate_pair_apply_right 2 X Y _ (ix3 β n (Fin.natAdd 256 d)) rfl rfl (ix3 β n d) ?_ ?_
  · intro b hb
    match b with
    | ⟨0, _⟩ => rfl
    | ⟨1, _⟩ => rfl
    | ⟨2, _⟩ => exact absurd rfl hb
  · show d.val + 256 = 256 + d.val
    omega

private theorem dotU (X : FVec Ideal S128x200x512 .f32) (W : FVec Ideal S512x256 .f32) (β : Fin 128) (n : Fin 200) (h : Fin 256) :
    Host.dotGeneral dot_S128x200x512_S512x256_S128x200x256_2_0_01_1_n_n none X W (ix3 β n h)
      = ∑ c : Fin 512, X (ix3 β n c) * W (ix2 c h) :=
  dotRows_apply _ X W β n h

private theorem dotD (H : FVec Ideal S128x200x256 .f32) (W : FVec Ideal S256x256 .f32) (β : Fin 128) (n : Fin 200) (h : Fin 256) :
    Host.dotGeneral dot_S128x200x256_S256x256_S128x200x256_2_0_01_1_n_n none H W (ix3 β n h)
      = ∑ c : Fin 256, H (ix3 β n c) * W (ix2 c h) :=
  dotRows_apply _ H W β n h

/-! ## The layers, one batch entry at a time -/

theorem embedB_slab (J : FVec Ideal S128x200x8 .f32) (W : FVec Ideal S8x256 .f32) (b : FVec Ideal S256 .f32) (β : Fin 128) :
    slab (embedB (F := Ideal) J W b) β = embedM (slab J β) (mat W) (vec b) := by
  funext n h
  show Ideal.tanh (addf (Host.dotGeneral dot_S128x200x8_S8x256_S128x200x256_2_0_01_1_n_n none J W) (biasB b) (ix3 β n h))
    = Ideal.tanh ((∑ f : Fin 8, J (ix3 β n f) * W (ix2 f h)) + b (ix1 h))
  rw [addf_apply, dotE, biasB_apply]

theorem logitsB_slab (H : FVec Ideal S128x200x256 .f32) (β : Fin 128) :
    slab (logitsB (F := Ideal) H) β = logitsM (slab H β) := by
  funext n m
  show (Host.dotGeneral dot_S128x200x256_S128x200x256_S128x200x200_2_2_1_1_0_0 none H H) (ix3 β n m) * sixteenth
    = (∑ d : Fin 256, H (ix3 β n d) * H (ix3 β m d)) * sixteenth
  rw [dotG]

theorem expShiftB_slab (L : FVec Ideal S128x200x200 .f32) (β : Fin 128) :
    slab (expShiftB (F := Ideal) L) β = expShiftM (slab L β) := by
  funext n m
  show Ideal.exp (L (ix3 β n m) - rowsB (maximumf (broadcastInDim S128x200 ![] bcast_S_S128x200 (constant (F := Ideal) S_ .f32 0xFF800000#32))
      (Host.reduce FloatOps.maximumf L (constant (F := Ideal) S_ .f32 0xFF800000#32) reducesTo_S128x200x200_S128x200_d2 h_S_)) (ix3 β n m))
    = Ideal.exp (L (ix3 β n m) - (Finset.univ : Finset (Fin 200)).fold max negInf (fun k => L (ix3 β n k)))
  rw [rowsB_apply, maximumf_apply, reduceMax_apply]
  have e : broadcastInDim S128x200 ![] bcast_S_S128x200 (constant (F := Ideal) S_ .f32 0xFF800000#32) (ix2 β n) = negInf := rfl
  rw [e, max_negInf_left]

theorem normRowsB_slab (E : FVec Ideal S128x200x200 .f32) (β : Fin 128) :
    slab (normRowsB (F := Ideal) E) β = normRowsM (slab E β) := by
  funext n m
  show Ideal.div (E (ix3 β n m)) (rowsB (Host.reduceAdd (F := Ideal) E (constant (F := Ideal) S_ .f32 0x00000000#32)
      reducesTo_S128x200x200_S128x200_d2 h_S_) (ix3 β n m))
    = Ideal.div (E (ix3 β n m)) (∑ k : Fin 200, E (ix3 β n k))
  rw [rowsB_apply, reduceAddLast_apply]

theorem adjacencyB_slab (H : FVec Ideal S128x200x256 .f32) (β : Fin 128) :
    slab (adjacencyB (F := Ideal) H) β = adjacencyM (slab H β) := by
  unfold adjacencyB adjacencyM
  rw [normRowsB_slab, expShiftB_slab, logitsB_slab]

theorem updateB_slab (H : FVec Ideal S128x200x256 .f32) (W : FVec Ideal S512x256 .f32) (b : FVec Ideal S256 .f32) (β : Fin 128) :
    slab (updateB (F := Ideal) H W b) β = updateM (slab H β) (mat W) (vec b) := by
  funext n h
  show Ideal.tanh (addf (Host.dotGeneral dot_S128x200x512_S512x256_S128x200x256_2_0_01_1_n_n none
      (concatenate S128x200x512 2 [⟨S128x200x256, H⟩,
        ⟨S128x200x256, Host.dotGeneral dot_S128x200x200_S128x200x256_S128x200x256_2_1_1_2_0_0 none (adjacencyB H) H⟩]
        concatenates_S128x200x256_S128x200x256_S128x200x512_d2) W) (biasB b) (ix3 β n h))
    = Ideal.tanh (((∑ d : Fin 256, H (ix3 β n d) * W (ix2 (Fin.castAdd 256 d) h))
      + (∑ d : Fin 256, (∑ m : Fin 200, adjacencyM (slab H β) n m * H (ix3 β m d)) * W (ix2 (Fin.natAdd 256 d) h))) + b (ix1 h))
  rw [addf_apply, dotU, biasB_apply, sum_halves]
  refine congrArg Ideal.tanh (congrArg (· + b (ix1 h)) ?_)
  refine congrArg₂ (fun x y : EReal => x + y) (Finset.sum_congr rfl fun d _ => ?_) (Finset.sum_congr rfl fun d _ => ?_)
  · rw [concat_left]
  · rw [concat_right, dotS]
    refine congrArg (· * W (ix2 (Fin.natAdd 256 d) h)) (Finset.sum_congr rfl fun m _ => ?_)
    exact congrArg (· * H (ix3 β m d)) (congrFun (congrFun (adjacencyB_slab H β) n) m)

theorem denseB_slab (H : FVec Ideal S128x200x256 .f32) (W : FVec Ideal S256x256 .f32) (b : FVec Ideal S256 .f32) (β : Fin 128) :
    slab (denseB (F := Ideal) H W b) β = denseM (slab H β) (mat W) (vec b) := by
  funext n h
  show Ideal.tanh (addf (Host.dotGeneral dot_S128x200x256_S256x256_S128x200x256_2_0_01_1_n_n none H W) (biasB b) (ix3 β n h))
    = Ideal.tanh ((∑ d : Fin 256, H (ix3 β n d) * W (ix2 d h)) + b (ix1 h))
  rw [addf_apply, dotD, biasB_apply]

theorem readoutB_apply (H : FVec Ideal S128x200x256 .f32) (W1 : FVec Ideal S256x256 .f32) (b1 : FVec Ideal S256 .f32)
    (W2 : FVec Ideal S256x256 .f32) (b2 : FVec Ideal S256 .f32) (β : Fin 128) (h : Fin 256) :
    readoutB (F := Ideal) H W1 b1 W2 b2 (ix2 β h) = readoutM (slab H β) (mat W1) (vec b1) (mat W2) (vec b2) h := by
  show Host.reduceAdd (F := Ideal)
      (addf (Host.dotGeneral dot_S128x200x256_S256x256_S128x200x256_2_0_01_1_n_n none (denseB H W1 b1) W2) (biasB b2))
      (constant (F := Ideal) S_ .f32 0x00000000#32) reducesTo_S128x200x256_S128x256_d1 h_S_ (ix2 β h)
    = (∑ n : Fin 200, ∑ d : Fin 256, denseM (slab H β) (mat W1) (vec b1) n d * W2 (ix2 d h)) + twoHundred * b2 (ix1 h)
  rw [reduceAddMid_apply, ← sum_add_const]
  refine Finset.sum_congr rfl fun n _ => ?_
  rw [addf_apply, dotD, biasB_apply]
  refine congrArg (· + b2 (ix1 h)) (Finset.sum_congr rfl fun d _ => ?_)
  exact congrArg (· * W2 (ix2 d h)) (congrFun (congrFun (denseB_slab H W1 b1 β) n) d)

theorem hidden2B_slab (J : FVec Ideal S128x200x8 .f32) (We : FVec Ideal S8x256 .f32) (be : FVec Ideal S256 .f32)
    (W0 : FVec Ideal S512x256 .f32) (b0 : FVec Ideal S256 .f32) (W1 : FVec Ideal S512x256 .f32) (b1 : FVec Ideal S256 .f32)
    (β : Fin 128) :
    slab (hidden2B (F := Ideal) J We be W0 b0 W1 b1) β
      = hidden2M (slab J β) (mat We) (vec be) (mat W0) (vec b0) (mat W1) (vec b1) := by
  unfold hidden2B hidden2M
  rw [updateB_slab, updateB_slab, embedB_slab]

end Cert.ReferenceIdeal.Batched

end
-- ==== Proof.Bridge.lean ====
/-
  The two programs compute the same two arrays.

  For every jet β the reference's batched layers, read at β, and the kernel's per-jet layers, run on row
  β of the jets array, are the same matrix functions (NetMath) of the same matrices: the slab at β of the
  jets array, the weights, and the bias vectors (which the kernel stages as 1 × 256 blocks).  So the
  adjacency arrays agree at every (β, n, m) and the readout arrays at every (β, h).
-/
import proofs.«163898_g85813446574462_cont_9to1c4b_288_12_alg».proof.Proof.JetApply
import proofs.«163898_g85813446574462_cont_9to1c4b_288_12_alg».proof.Proof.RefApply
import proofs.«163898_g85813446574462_cont_9to1c4b_288_12_alg».proof.Proof.KernelValue

noncomputable section

namespace Cert.Proof.Bridge

open Idealize.ShloMosaic Idealize.SL.Sem Idealize.ShloMosaic.ValueIdx Cert.Net
open Cert.KernelIdeal (Jet.jetAdj Jet.jetOut)
open Cert.KernelIdeal.KValue (biasBlk)
open Cert.ReferenceIdeal.Batched

/-- Row β of a jets array, as the 1 × 200 × 8 block the kernel loads. -/
def rowBlk (J : FVec Ideal ⟨3, ![128, 200, 8]⟩ .f32) (β : Fin 128) : FVec Ideal ⟨3, ![1, 200, 8]⟩ .f32 :=
  fun x => J (ix3 β (x 1) (x 2))

/-- Its one slab is the slab at β. -/
theorem slab_rowBlk (J : FVec Ideal ⟨3, ![128, 200, 8]⟩ .f32) (β : Fin 128) : slab (rowBlk J β) 0 = slab J β := rfl

/-- A bias vector staged as a 1 × 256 block has that vector as its row. -/
theorem rowOf_biasBlk (b : FVec Ideal ⟨1, ![256]⟩ .f32) : rowOf (biasBlk b) = vec b := rfl

/-- The adjacency arrays agree. -/
theorem adj_bridge (J : FVec Ideal ⟨3, ![128, 200, 8]⟩ .f32) (We : FVec Ideal ⟨2, ![8, 256]⟩ .f32) (be : FVec Ideal ⟨1, ![256]⟩ .f32)
    (W0 : FVec Ideal ⟨2, ![512, 256]⟩ .f32) (b0 : FVec Ideal ⟨1, ![256]⟩ .f32)
    (W1 : FVec Ideal ⟨2, ![512, 256]⟩ .f32) (b1 : FVec Ideal ⟨1, ![256]⟩ .f32) :
    adjacencyB (F := Ideal) (hidden2B J We be W0 b0 W1 b1)
      = fun i => Jet.jetAdj (F := Ideal) (rowBlk J (i 0)) We (biasBlk be) W0 (biasBlk b0) W1 (biasBlk b1) (ix3 0 (i 1) (i 2)) := by
  funext i
  obtain ⟨β, n, k, rfl⟩ : ∃ (β : Fin 128) (n k : Fin 200), i = ix3 β n k := ⟨i 0, i 1, i 2, eq_ix3 i⟩
  show slab (adjacencyB (F := Ideal) (hidden2B J We be W0 b0 W1 b1)) β n k
    = Jet.jetAdj (F := Ideal) (rowBlk J β) We (biasBlk be) W0 (biasBlk b0) W1 (biasBlk b1) (ix3 0 n k)
  rw [adjacencyB_slab, hidden2B_slab, Cert.KernelIdeal.Jet.jetAdj_apply]
  rfl

/-- The readout arrays agree. -/
theorem out_bridge (J : FVec Ideal ⟨3, ![128, 200, 8]⟩ .f32) (We : FVec Ideal ⟨2, ![8, 256]⟩ .f32) (be : FVec Ideal ⟨1, ![256]⟩ .f32)
    (W0 : FVec Ideal ⟨2, ![512, 256]⟩ .f32) (b0 : FVec Ideal ⟨1, ![256]⟩ .f32)
    (W1 : FVec Ideal ⟨2, ![512, 256]⟩ .f32) (b1 : FVec Ideal ⟨1, ![256]⟩ .f32)
    (W2 : FVec Ideal ⟨2, ![512, 256]⟩ .f32) (b2 : FVec Ideal ⟨1, ![256]⟩ .f32)
    (Wr1 : FVec Ideal ⟨2, ![256, 256]⟩ .f32) (br1 : FVec Ideal ⟨1, ![256]⟩ .f32)
    (Wr2 : FVec Ideal ⟨2, ![256, 256]⟩ .f32) (br2 : FVec Ideal ⟨1, ![256]⟩ .f32) :
    readoutB (F := Ideal) (updateB (hidden2B J We be W0 b0 W1 b1) W2 b2) Wr1 br1 Wr2 br2
      = fun i => Jet.jetOut (F := Ideal) (rowBlk J (i 0)) We (biasBlk be) W0 (biasBlk b0) W1 (biasBlk b1) W2 (biasBlk b2)
          Wr1 (biasBlk br1) Wr2 (biasBlk br2) (ix3 0 0 (i 1)) := by
  funext i
  obtain ⟨β, h, rfl⟩ : ∃ (β : Fin 128) (h : Fin 256), i = ix2 β h := ⟨i 0, i 1, eq_ix2 i⟩
  show readoutB (F := Ideal) (updateB (hidden2B J We be W0 b0 W1 b1) W2 b2) Wr1 br1 Wr2 br2 (ix2 β h)
    = Jet.jetOut (F := Ideal) (rowBlk J β) We (biasBlk be) W0 (biasBlk b0) W1 (biasBlk b1) W2 (biasBlk b2)
        Wr1 (biasBlk br1) Wr2 (biasBlk br2) (ix3 0 0 h)
  rw [readoutB_apply, updateB_slab, hidden2B_slab, Cert.KernelIdeal.Jet.jetOut_apply]
  rfl

end Cert.Proof.Bridge

end
-- ==== Proof.lean ====
/-
  The certificate of the message-passing network kernel against its reference.

  Both programs compute, for each of 128 jets of 200 particles with 8 features: an embedding
  h₀ = tanh(J·W_emb + b_emb); three rounds h ↦ tanh([h, A(h)·h]·W + b), with A(h) the row-wise softmax of
  (h·hᵀ)/16; the readout Σ_n (tanh(h·W_r1 + b_r1)·W_r2 + b_r2)[n, ·]; and they return that readout with the
  third round's adjacency.  The kernel runs sixteen jets per grid point, each jet by itself, multiplies
  h and A(h)·h by the two halves of W separately, and adds 200·b_r2 after the sum over the particles.
  Read on the extended reals the two are the same functions of the arguments (NetMath, Bridge), at every
  argument, finite or not: the precondition is not used.  The kernel's frames are the generated ones; the
  reference's frame is its run with the results dropped; the idealized kernel is the kernel's own text, so
  there is nothing to preserve.
-/
import proofs.«163898_g85813446574462_cont_9to1c4b_288_12_alg».proof.Defs
import proofs.«163898_g85813446574462_cont_9to1c4b_288_12_alg».proof.Proof.Gen.Kernel
import proofs.«163898_g85813446574462_cont_9to1c4b_288_12_alg».proof.Proof.Gen.Kernel.Frame
import proofs.«163898_g85813446574462_cont_9to1c4b_288_12_alg».proof.Proof.Gen.KernelIdeal
import proofs.«163898_g85813446574462_cont_9to1c4b_288_12_alg».proof.Proof.Gen.KernelIdeal.Frame
import proofs.«163898_g85813446574462_cont_9to1c4b_288_12_alg».proof.Proof.Gen.ReferenceIdeal
import proofs.«163898_g85813446574462_cont_9to1c4b_288_12_alg».proof.Proof.Gen.Pre_finite_inputs
import proofs.«163898_g85813446574462_cont_9to1c4b_288_12_alg».proof.Proof.KernelValue
import proofs.«163898_g85813446574462_cont_9to1c4b_288_12_alg».proof.Proof.RefRun
import proofs.«163898_g85813446574462_cont_9to1c4b_288_12_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2)
    (Cert.ReferenceIdeal.RefValue.ref_run (F := Ideal) m ρ)

theorem preserves : Cert.preserves_Kernel_KernelIdeal := trivial

/-- From memories agreeing on the arguments both programs end with the same readout and the same adjacency:
    the kernel's, row β the per-jet computation on jet β; the reference's, the batched layers; equal by the
    bridge once the reference's arguments are replaced by the kernel's. -/
theorem algebraic : Cert.algebraic_KernelIdeal_ReferenceIdeal := by
  intro m ρ m' ρ' _ hagree
  refine ⟨fun c => Cert.KernelIdeal.KValue.outK m c, fun c => Cert.KernelIdeal.KValue.adjK m c,
    Cert.KernelIdeal.KValue.kernel_run m ρ, ?_⟩
  refine (θ_run Cert.ReferenceIdeal.defs _ _).mono (fun _ h c => ⟨(h c).1.trans ?_, (h c).2.1.trans ?_, (h c).2.2⟩)
    (Cert.ReferenceIdeal.RefValue.ref_run (F := Ideal) m' ρ')
  · obtain ⟨h0, h1, h2, h3, h4, h5, h6, h7, h8, h9, h10, h11, h12⟩ := hagree c
    unfold Cert.ReferenceIdeal.RefValue.refOut Cert.KernelIdeal.KValue.outK
    rw [h0, h1, h2, h3, h4, h5, h6, h7, h8, h9, h10, h11, h12]
    exact Cert.Proof.Bridge.out_bridge _ _ _ _ _ _ _ _ _ _ _ _ _
  · obtain ⟨h0, h1, h2, h3, h4, h5, h6, h7, h8, h9, h10, h11, h12⟩ := hagree c
    unfold Cert.ReferenceIdeal.RefValue.refAdj Cert.KernelIdeal.KValue.adjK
    rw [h0, h1, h2, h3, h4, h5, h6]
    exact Cert.Proof.Bridge.adj_bridge _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
